-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S1x3x3 : Shape := ⟨3, ![1, 3, 3]⟩
abbrev S3200000x3 : Shape := ⟨2, ![3200000, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1x3x3 : S_.BroadcastsInDim S1x3x3 (![] : Fin 0 → Fin S1x3x3.rank)
  reducesTo_S1x3x3_S_d0_1_2 : S1x3x3.ReducesTo [0, 1, 2] S_
  bcast_S_S3200000x3 : S_.BroadcastsInDim S3200000x3 (![] : Fin 0 → Fin S3200000x3.rank)
  reducesTo_S3200000x3_S_d0_1 : S3200000x3.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_v13 : IVec S_ 1) (main_v15 : IVec S2x3200000 1) (main_c_5 : IVec S_ 1) : IVec S_ 1 :=
  let main_v16 : IVec S_ 1 := (fun x v => Host.reduce IntOp.andi x v reducesTo_S2x3200000_S_d0_1 h_S_) main_v15 main_c_5
  let main_v17 : IVec S_ 1 := andi main_v13 main_v16
  let main_c_6 : IVec S_ 32 := constantI S_ 32 100000#32
  let main_v18 : IVec S2x3200000 32 := broadcastInDim S2x3200000 ![] bcast_S_S2x3200000 main_c_6
  let main_v19 : IVec S2x3200000 1 := cmpi .slt main_arg1 main_v18
  let main_c_7 : IVec S_ 1 := constantI S_ 1 1#1
  let main_v20 : IVec S_ 1 := (fun x v => Host.reduce IntOp.andi x v reducesTo_S2x3200000_S_d0_1 h_S_) main_v19 main_c_7
  let main_v21 : IVec S_ 1 := andi main_v17 main_v20
  main_v21

def fn {F : FTy → Type} [FloatOps F] (main_arg0 : FVec F S100000x3 .f32) (main_arg1 : IVec S2x3200000 32) (main_arg2 : FVec F S1x3x3 .f32) (main_arg3 : FVec F S3200000x3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1x3x3 .f32 := Host.absf main_arg2
  let main_cst_0 : FVec F S_ .f32 := constant S_ .f32 0x7F800000#32
  let main_v5 : FVec F S1x3x3 .f32 := broadcastInDim S1x3x3 ![] bcast_S_S1x3x3 main_cst_0
  let main_v6 : IVec S1x3x3 1 := cmpf .olt main_v4 main_v5
  let main_c_1 : IVec S_ 1 := constantI S_ 1 1#1
  let main_v7 : IVec S_ 1 := (fun x v => Host.reduce IntOp.andi x v reducesTo_S1x3x3_S_d0_1_2 h_S_) main_v6 main_c_1
  let main_v8 : IVec S_ 1 := andi main_v3 main_v7
  let main_v9 : FVec F S3200000x3 .f32 := Host.absf main_arg3
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  let main_c_4 : IVec S_ 32 := constantI S_ 32 0#32
  let main_v14 : IVec S2x3200000 32 := broadcastInDim S2x3200000 ![] bcast_S_S2x3200000 main_c_4
  let main_v15 : IVec S2x3200000 1 := cmpi .sge main_arg1 main_v14
  let main_c_5 : IVec S_ 1 := constantI S_ 1 1#1
  fn_part1 (F := F) main_arg1 main_v13 main_v15 main_c_5
-- ==== Kernel.lean ====
abbrev S100000x3 : Shape := ⟨2, ![100000, 3]⟩
abbrev S2x3200000 : Shape := ⟨2, ![2, 3200000]⟩
abbrev S1x3x3 : Shape := ⟨3, ![1, 3, 3]⟩
abbrev S3200000x3 : Shape := ⟨2, ![3200000, 3]⟩
abbrev S1x3200000 : Shape := ⟨2, ![1, 3200000]⟩
abbrev S3200000 : Shape := ⟨1, ![3200000]⟩
abbrev S3x100000 : Shape := ⟨2, ![3, 100000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3x3200000 : Shape := ⟨2, ![3, 3200000]⟩
abbrev S3x3 : Shape := ⟨2, ![3, 3]⟩
abbrev S1x3 : Shape := ⟨2, ![1, 3]⟩
abbrev S3x1 : Shape := ⟨2, ![3, 1]⟩
abbrev S3200000x16 : Shape := ⟨2, ![3200000, 16]⟩
abbrev S3x12800 : Shape := ⟨2, ![3, 12800]⟩
abbrev S12800x16 : Shape := ⟨2, ![12800, 16]⟩
abbrev S1x12800 : Shape := ⟨2, ![1, 12800]⟩
abbrev S16x12800 : Shape := ⟨2, ![16, 12800]⟩

abbrev nBuf : Space → Nat
  | .hbm => 80
  | .vmem => 4
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S1x3x3, .f32⟩
  | .hbm, ⟨3, _⟩ => ⟨S3200000x3, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S3x100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S1, .i32⟩
  | .hbm, ⟨18, _⟩ => ⟨S_, .i32⟩
  | .hbm, ⟨19, _⟩ => ⟨S3200000x1, .i32⟩
  | .hbm, ⟨20, _⟩ => ⟨S3200000x1, .i1⟩
  | .hbm, ⟨21, _⟩ => ⟨S1x1, .i32⟩
  | .hbm, ⟨22, _⟩ => ⟨S3200000x1, .i32⟩
  | .hbm, ⟨23, _⟩ => ⟨S3200000x1, .i1⟩
  | .hbm, ⟨24, _⟩ => ⟨S3200000x1, .i1⟩
  | .hbm, ⟨25, _⟩ => ⟨S_, .i1⟩
  | .hbm, ⟨26, _⟩ => ⟨S3200000, .i1⟩
  | .hbm, ⟨27, _⟩ => ⟨S3x3200000, .f32⟩
  | .hbm, ⟨28, _⟩ => ⟨S3x3200000, .i1⟩
  | .hbm, ⟨29, _⟩ => ⟨S_, .f32⟩
  | .hbm, ⟨30, _⟩ => ⟨S3x3200000, .f32⟩
  | .hbm, ⟨31, _⟩ => ⟨S3x3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S1, .i32⟩
  | .hbm, ⟨41, _⟩ => ⟨S_, .i32⟩
  | .hbm, ⟨42, _⟩ => ⟨S3200000x1, .i32⟩
  | .hbm, ⟨43, _⟩ => ⟨S3200000x1, .i1⟩
  | .hbm, ⟨44, _⟩ => ⟨S1x1, .i32⟩
  | .hbm, ⟨45, _⟩ => ⟨S3200000x1, .i32⟩
  | .hbm, ⟨46, _⟩ => ⟨S3200000x1, .i1⟩
  | .hbm, ⟨47, _⟩ => ⟨S3200000x1, .i1⟩
  | .hbm, ⟨48, _⟩ => ⟨S_, .i1⟩
  | .hbm, ⟨49, _⟩ => ⟨S3200000, .i1⟩
  | .hbm, ⟨50, _⟩ => ⟨S3x3200000, .f32⟩
  | .hbm, ⟨51, _⟩ => ⟨S3x3200000, .i1⟩
  | .hbm, ⟨52, _⟩ => ⟨S_, .f32⟩
  | .hbm, ⟨53, _⟩ => ⟨S3x3200000, .f32⟩
  | .hbm, ⟨54, _⟩ => ⟨S3x3200000, .f32⟩
  | .hbm, ⟨55, _⟩ => ⟨S3x3200000, .f32⟩
  | .hbm, ⟨56, _⟩ => ⟨S3x3, .f32⟩
  | .hbm, ⟨57, _⟩ => ⟨S1x3, .f32⟩
  | .hbm, ⟨58, _⟩ => ⟨S3x1, .f32⟩
  | .hbm, ⟨59, _⟩ => ⟨S1x3200000, .f32⟩
  | .hbm, ⟨60, _⟩ => ⟨S3x3200000, .f32⟩
  | .hbm, ⟨61, _⟩ => ⟨S3x3200000, .f32⟩
  | .hbm, ⟨62, _⟩ => ⟨S3x3200000, .f32⟩
  | .hbm, ⟨63, _⟩ => ⟨S1x3, .f32⟩
  | .hbm, ⟨64, _⟩ => ⟨S3x1, .f32⟩
  | .hbm, ⟨65, _⟩ => ⟨S1x3200000, .f32⟩
  | .hbm, ⟨66, _⟩ => ⟨S3x3200000, .f32⟩
  | .hbm, ⟨67, _⟩ => ⟨S3x3200000, .f32⟩
  | .hbm, ⟨68, _⟩ => ⟨S3x3200000, .f32⟩
  | .hbm, ⟨69, _⟩ => ⟨S3x3200000, .f32⟩
  | .hbm, ⟨70, _⟩ => ⟨S1x3, .f32⟩
  | .hbm, ⟨71, _⟩ => ⟨S3x1, .f32⟩
  | .hbm, ⟨72, _⟩ => ⟨S1x3200000, .f32⟩
  | .hbm, ⟨73, _⟩ => ⟨S3x3200000, .f32⟩
  | .hbm, ⟨74, _⟩ => ⟨S3x3200000, .f32⟩
  | .hbm, ⟨75, _⟩ => ⟨S3x3200000, .f32⟩
  | .hbm, ⟨76, _⟩ => ⟨S3x3200000, .f32⟩
  | .hbm, ⟨77, _⟩ => ⟨S3x3200000, .f32⟩
  | .hbm, ⟨78, _⟩ => ⟨S3x3200000, .f32⟩
  | .hbm, ⟨79, _⟩ => ⟨S3200000x16, .f32⟩
  | .local _ .vmem, ⟨0, _⟩ => ⟨S3x12800, .f32⟩
  | .local _ .vmem, ⟨1, _⟩ => ⟨S3x12800, .f32⟩
  | .local _ .vmem, ⟨2, _⟩ => ⟨S12800x16, .f32⟩
  | .local _ .vmem, ⟨3, _⟩ => ⟨S12800x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S100000x3_S3x100000_1_0 : S100000x3.Transposes [1, 0] S3x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3x3200000_1 : S3200000.BroadcastsInDim S3x3200000 (![1] : Fin 1 → Fin S3x3200000.rank)
  bcast_S_S3x3200000 : S_.BroadcastsInDim S3x3200000 (![] : Fin 0 → Fin S3x3200000.rank)
  transposes_S3200000x3_S3x3200000_1_0 : S3200000x3.Transposes [1, 0] S3x3200000
  shapeCasts_S1x3x3_S3x3 : S1x3x3.ShapeCasts S3x3
  slices_S3x3_S1x3_0_0 : S3x3.Slices ![0, 0] S1x3
  transposes_S1x3_S3x1_1_0 : S1x3.Transposes [1, 0] S3x1
  slices_S3x3200000_S1x3200000_0_0 : S3x3200000.Slices ![0, 0] S1x3200000
  bcast_S3x1_S3x3200000_0_1 : S3x1.BroadcastsInDim S3x3200000 (![0, 1] : Fin 2 → Fin S3x3200000.rank)
  bcast_S1x3200000_S3x3200000_0_1 : S1x3200000.BroadcastsInDim S3x3200000 (![0, 1] : Fin 2 → Fin S3x3200000.rank)
  slices_S3x3_S1x3_1_0 : S3x3.Slices ![1, 0] S1x3
  slices_S3x3200000_S1x3200000_1_0 : S3x3200000.Slices ![1, 0] S1x3200000
  slices_S3x3_S1x3_2_0 : S3x3.Slices ![2, 0] S1x3
  slices_S3x3200000_S1x3200000_2_0 : S3x3200000.Slices ![2, 0] S1x3200000
  inb_S3x12800_S1x12800_0_0 : ∀ a, (![0, 0] : Fin 2 → Nat) a + S1x12800.size a ≤ S3x12800.size a
  h_S1x12800 : 0 < S1x12800.numel
  shapeCasts_S1x12800_S1x12800 : S1x12800.ShapeCasts S1x12800
  inb_S3x12800_S1x12800_1_0 : ∀ a, (![1, 0] : Fin 2 → Nat) a + S1x12800.size a ≤ S3x12800.size a
  inb_S3x12800_S1x12800_2_0 : ∀ a, (![2, 0] : Fin 2 → Nat) a + S1x12800.size a ≤ S3x12800.size a
  concatenates_S1x12800_S1x12800_S1x12800_S1x12800_S1x12800_S1x12800_S1x12800_S1x12800_S1x12800_S1x12800_S1x12800_S1x12800_S1x12800_S1x12800_S1x12800_S1x12800_S16x12800_d0 : Shape.Concatenates [S1x12800, S1x12800, S1x12800, S1x12800, S1x12800, S1x12800, S1x12800, S1x12800, S1x12800, S1x12800, S1x12800, S1x12800, S1x12800, S1x12800, S1x12800, S1x12800] S16x12800 0
  transposes_S16x12800_p1_0_S12800x16 : S16x12800.Transposes [1, 0] S12800x16
  inb_S12800x16_S12800x16_0_0 : ∀ a, (![0, 0] : Fin 2 → Nat) a + S12800x16.size a ≤ S12800x16.size a
  h_S12800x16 : 0 < S12800x16.numel
  gather_S3x100000_S3200000x1_S3x3200000_0_1_n_n_1_1_31_wf : GatherDims.WF S3x100000 S3200000x1 S3x3200000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x12800.size a ≤ S3x3200000.size a
  hwx0_0 : ∀ i : grid0.Coords, EltTy.bits .f32 = 32 ∨ (Rect.block (s := S3x3200000) S3x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x16.size a ≤ S3200000x16.size a
  hwx0_1 : ∀ i : grid0.Coords, EltTy.bits .f32 = 32 ∨ (Rect.block (s := S3200000x16) S12800x16.size (cc0_transform_1 i) (hinb0_1 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf

abbrev win0_0 : Pipeline.Window sig grid0 :=
  Pipeline.Window.ofSpec (Memref.whole main_v30) S3x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S12800x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S1x3x3 : Shape := ⟨3, ![1, 3, 3]⟩
abbrev S3200000x3 : Shape := ⟨2, ![3200000, 3]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3x3 : Shape := ⟨2, ![3, 3]⟩
abbrev S3200000x16 : Shape := ⟨2, ![3200000, 16]⟩

abbrev nBuf : Space → Nat
  | .hbm => 181
  | .vmem => 0
  | .smem => 0
  | _ => 0

abbrev hbmTy0_0 (i : Nat) : BufTy := match i % 128 with
  | 0 => ⟨S100000x3, .f32⟩
  | 1 => ⟨S2x3200000, .i32⟩
  | 2 => ⟨S1x3x3, .f32⟩
  | 3 => ⟨S3200000x3, .f32⟩
  | 4 => ⟨S1x3200000, .i32⟩
  | 5 => ⟨S3200000, .i32⟩
  | 6 => ⟨S1x3200000, .i32⟩
  | 7 => ⟨S3200000, .i32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x3, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x3, .f32⟩
  | 26 => ⟨S3200000x3, .f32⟩
  | 27 => ⟨S3x3, .f32⟩
  | 28 => ⟨S3200000x3, .f32⟩
  | 29 => ⟨S3200000x3, .f32⟩
  | 30 => ⟨S3200000x3, .f32⟩
  | 31 => ⟨S_, .f32⟩
  | 32 => ⟨S3200000, .f32⟩
  | 33 => ⟨S3200000x1, .f32⟩
  | 34 => ⟨S3200000x1, .f32⟩
  | 35 => ⟨S_, .f32⟩
  | 36 => ⟨S3200000x1, .f32⟩
  | 37 => ⟨S3200000x1, .f32⟩
  | 38 => ⟨S3200000x3, .f32⟩
  | 39 => ⟨S3200000x3, .f32⟩
  | 40 => ⟨S3200000x1, .f32⟩
  | 41 => ⟨S3200000, .f32⟩
  | 42 => ⟨S3200000x1, .f32⟩
  | 43 => ⟨S3200000, .f32⟩
  | 44 => ⟨S3200000x1, .f32⟩
  | 45 => ⟨S3200000, .f32⟩
  | 46 => ⟨S3200000, .f32⟩
  | 47 => ⟨S3200000, .f32⟩
  | 48 => ⟨S3200000, .f32⟩
  | 49 => ⟨S3200000, .f32⟩
  | 50 => ⟨S_, .f32⟩
  | 51 => ⟨S3200000, .f32⟩
  | 52 => ⟨S_, .f32⟩
  | 53 => ⟨S3200000, .f32⟩
  | 54 => ⟨S3200000, .f32⟩
  | 55 => ⟨S3200000, .f32⟩
  | 56 => ⟨S_, .f32⟩
  | 57 => ⟨S3200000, .f32⟩
  | 58 => ⟨S3200000, .f32⟩
  | 59 => ⟨S3200000, .f32⟩
  | 60 => ⟨S_, .f32⟩
  | 61 => ⟨S3200000, .f32⟩
  | 62 => ⟨S3200000, .f32⟩
  | 63 => ⟨S3200000, .f32⟩
  | 64 => ⟨S_, .f32⟩
  | 65 => ⟨S3200000, .f32⟩
  | 66 => ⟨S3200000, .f32⟩
  | 67 => ⟨S3200000, .f32⟩
  | 68 => ⟨S3200000, .f32⟩
  | 69 => ⟨S_, .f32⟩
  | 70 => ⟨S3200000, .f32⟩
  | 71 => ⟨S3200000, .f32⟩
  | 72 => ⟨S3200000, .f32⟩
  | 73 => ⟨S3200000, .f32⟩
  | 74 => ⟨S3200000, .f32⟩
  | 75 => ⟨S_, .f32⟩
  | 76 => ⟨S3200000, .f32⟩
  | 77 => ⟨S3200000, .f32⟩
  | 78 => ⟨S_, .f32⟩
  | 79 => ⟨S3200000, .f32⟩
  | 80 => ⟨S3200000, .f32⟩
  | 81 => ⟨S3200000, .f32⟩
  | 82 => ⟨S_, .f32⟩
  | 83 => ⟨S3200000, .f32⟩
  | 84 => ⟨S3200000, .f32⟩
  | 85 => ⟨S3200000, .f32⟩
  | 86 => ⟨S_, .f32⟩
  | 87 => ⟨S3200000, .f32⟩
  | 88 => ⟨S3200000, .f32⟩
  | 89 => ⟨S3200000, .f32⟩
  | 90 => ⟨S_, .f32⟩
  | 91 => ⟨S3200000, .f32⟩
  | 92 => ⟨S3200000, .f32⟩
  | 93 => ⟨S_, .f32⟩
  | 94 => ⟨S3200000, .f32⟩
  | 95 => ⟨S3200000, .f32⟩
  | 96 => ⟨S_, .f32⟩
  | 97 => ⟨S3200000, .f32⟩
  | 98 => ⟨S3200000, .f32⟩
  | 99 => ⟨S3200000, .f32⟩
  | 100 => ⟨S3200000, .f32⟩
  | 101 => ⟨S_, .f32⟩
  | 102 => ⟨S3200000, .f32⟩
  | 103 => ⟨S3200000, .f32⟩
  | 104 => ⟨S_, .f32⟩
  | 105 => ⟨S3200000, .f32⟩
  | 106 => ⟨S3200000, .f32⟩
  | 107 => ⟨S3200000, .f32⟩
  | 108 => ⟨S3200000, .f32⟩
  | 109 => ⟨S_, .f32⟩
  | 110 => ⟨S3200000, .f32⟩
  | 111 => ⟨S3200000, .f32⟩
  | 112 => ⟨S3200000, .f32⟩
  | 113 => ⟨S3200000, .f32⟩
  | 114 => ⟨S3200000, .f32⟩
  | 115 => ⟨S3200000, .f32⟩
  | 116 => ⟨S_, .f32⟩
  | 117 => ⟨S3200000, .f32⟩
  | 118 => ⟨S3200000, .f32⟩
  | 119 => ⟨S_, .f32⟩
  | 120 => ⟨S3200000, .f32⟩
  | 121 => ⟨S3200000, .f32⟩
  | 122 => ⟨S_, .f32⟩
  | 123 => ⟨S3200000, .f32⟩
  | 124 => ⟨S3200000, .f32⟩
  | 125 => ⟨S_, .f32⟩
  | 126 => ⟨S3200000, .f32⟩
  | 127 => ⟨S3200000, .f32⟩
  | _ => ⟨S100000x3, .f32⟩

abbrev hbmTy0_1 (i : Nat) : BufTy := match i % 128 with
  | 0 => ⟨S_, .f32⟩
  | 1 => ⟨S3200000, .f32⟩
  | 2 => ⟨S3200000, .f32⟩
  | 3 => ⟨S_, .f32⟩
  | 4 => ⟨S3200000, .f32⟩
  | 5 => ⟨S3200000, .f32⟩
  | 6 => ⟨S_, .f32⟩
  | 7 => ⟨S3200000, .f32⟩
  | 8 => ⟨S3200000, .f32⟩
  | 9 => ⟨S_, .f32⟩
  | 10 => ⟨S3200000, .f32⟩
  | 11 => ⟨S3200000, .f32⟩
  | 12 => ⟨S_, .f32⟩
  | 13 => ⟨S3200000, .f32⟩
  | 14 => ⟨S3200000, .f32⟩
  | 15 => ⟨S_, .f32⟩
  | 16 => ⟨S3200000, .f32⟩
  | 17 => ⟨S3200000, .f32⟩
  | 18 => ⟨S_, .f32⟩
  | 19 => ⟨S3200000, .f32⟩
  | 20 => ⟨S3200000, .f32⟩
  | 21 => ⟨S_, .f32⟩
  | 22 => ⟨S3200000, .f32⟩
  | 23 => ⟨S3200000, .f32⟩
  | 24 => ⟨S_, .f32⟩
  | 25 => ⟨S3200000, .f32⟩
  | 26 => ⟨S3200000, .f32⟩
  | 27 => ⟨S_, .f32⟩
  | 28 => ⟨S3200000, .f32⟩
  | 29 => ⟨S3200000, .f32⟩
  | 30 => ⟨S_, .f32⟩
  | 31 => ⟨S3200000, .f32⟩
  | 32 => ⟨S3200000, .f32⟩
  | 33 => ⟨S_, .f32⟩
  | 34 => ⟨S3200000, .f32⟩
  | 35 => ⟨S3200000, .f32⟩
  | 36 => ⟨S3200000x1, .f32⟩
  | 37 => ⟨S3200000x1, .f32⟩
  | 38 => ⟨S3200000x1, .f32⟩
  | 39 => ⟨S3200000x1, .f32⟩
  | 40 => ⟨S3200000x1, .f32⟩
  | 41 => ⟨S3200000x1, .f32⟩
  | 42 => ⟨S3200000x1, .f32⟩
  | 43 => ⟨S3200000x1, .f32⟩
  | 44 => ⟨S3200000x1, .f32⟩
  | 45 => ⟨S3200000x1, .f32⟩
  | 46 => ⟨S3200000x1, .f32⟩
  | 47 => ⟨S3200000x1, .f32⟩
  | 48 => ⟨S3200000x1, .f32⟩
  | 49 => ⟨S3200000x1, .f32⟩
  | 50 => ⟨S3200000x1, .f32⟩
  | 51 => ⟨S3200000x1, .f32⟩
  | 52 => ⟨S3200000x16, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_v90 : Ref sig .tc := ⟨.hbm, 121, rfl⟩
abbrev main_cst_21 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_cst_23 : Ref sig .tc := ⟨.hbm, 128, rfl⟩
abbrev main_v95 : Ref sig .tc := ⟨.hbm, 129, rfl⟩
abbrev main_v96 : Ref sig .tc := ⟨.hbm, 130, rfl⟩
abbrev main_cst_24 : Ref sig .tc := ⟨.hbm, 131, rfl⟩
abbrev main_v97 : Ref sig .tc := ⟨.hbm, 132, rfl⟩
abbrev main_v98 : Ref sig .tc := ⟨.hbm, 133, rfl⟩
abbrev main_cst_25 : Ref sig .tc := ⟨.hbm, 134, rfl⟩
abbrev main_v99 : Ref sig .tc := ⟨.hbm, 135, rfl⟩
abbrev main_v100 : Ref sig .tc := ⟨.hbm, 136, rfl⟩
abbrev main_cst_26 : Ref sig .tc := ⟨.hbm, 137, rfl⟩
abbrev main_v101 : Ref sig .tc := ⟨.hbm, 138, rfl⟩
abbrev main_v102 : Ref sig .tc := ⟨.hbm, 139, rfl⟩
abbrev main_cst_27 : Ref sig .tc := ⟨.hbm, 140, rfl⟩
abbrev main_v103 : Ref sig .tc := ⟨.hbm, 141, rfl⟩
abbrev main_v104 : Ref sig .tc := ⟨.hbm, 142, rfl⟩
abbrev main_cst_28 : Ref sig .tc := ⟨.hbm, 143, rfl⟩
abbrev main_v105 : Ref sig .tc := ⟨.hbm, 144, rfl⟩
abbrev main_v106 : Ref sig .tc := ⟨.hbm, 145, rfl⟩
abbrev main_cst_29 : Ref sig .tc := ⟨.hbm, 146, rfl⟩
abbrev main_v107 : Ref sig .tc := ⟨.hbm, 147, rfl⟩
abbrev main_v108 : Ref sig .tc := ⟨.hbm, 148, rfl⟩
abbrev main_cst_30 : Ref sig .tc := ⟨.hbm, 149, rfl⟩
abbrev main_v109 : Ref sig .tc := ⟨.hbm, 150, rfl⟩
abbrev main_v110 : Ref sig .tc := ⟨.hbm, 151, rfl⟩
abbrev main_cst_31 : Ref sig .tc := ⟨.hbm, 152, rfl⟩
abbrev main_v111 : Ref sig .tc := ⟨.hbm, 153, rfl⟩
abbrev main_v112 : Ref sig .tc := ⟨.hbm, 154, rfl⟩
abbrev main_cst_32 : Ref sig .tc := ⟨.hbm, 155, rfl⟩
abbrev main_v113 : Ref sig .tc := ⟨.hbm, 156, rfl⟩
abbrev main_v114 : Ref sig .tc := ⟨.hbm, 157, rfl⟩
abbrev main_cst_33 : Ref sig .tc := ⟨.hbm, 158, rfl⟩
abbrev main_v115 : Ref sig .tc := ⟨.hbm, 159, rfl⟩
abbrev main_v116 : Ref sig .tc := ⟨.hbm, 160, rfl⟩
abbrev main_cst_34 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S1x3x3_S3x3 : S1x3x3.ShapeCasts S3x3
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  slices_S3200000x3_S3200000x1_0_0 : S3200000x3.Slices ![0, 0] S3200000x1
  shapeCasts_S3200000x1_S3200000 : S3200000x1.ShapeCasts S3200000
  slices_S3200000x3_S3200000x1_0_1 : S3200000x3.Slices ![0, 1] S3200000x1
  slices_S3200000x3_S3200000x1_0_2 : S3200000x3.Slices ![0, 2] S3200000x1
  concatenates_S3200000x1_S3200000x1_S3200000x1_S3200000x1_S3200000x1_S3200000x1_S3200000x1_S3200000x1_S3200000x1_S3200000x1_S3200000x1_S3200000x1_S3200000x1_S3200000x1_S3200000x1_S3200000x1_S3200000x16_d1 : Shape.Concatenates [S3200000x1, S3200000x1, S3200000x1, S3200000x1, S3200000x1, S3200000x1, S3200000x1, S3200000x1, S3200000x1, S3200000x1, S3200000x1, S3200000x1, S3200000x1, S3200000x1, S3200000x1, S3200000x1] S3200000x16 1
  gather_S100000x3_S3200000x1_S3200000x3_1_0_n_n_0_1_13_wf : GatherDims.WF S100000x3 S3200000x1 S3200000x3 [1] [0] [] [0] [] 1 ![1, 3]
  dot_S3200000x3_S3x3_S3200000x3_1_0_0_1_n_n_wf : DotDims.WF S3200000x3 S3x3 S3200000x3 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x3_S3x3_S3200000x3_1_0_0_1_n_n : DotDims S3200000x3 S3x3 S3200000x3 where
  lhsContracting := [1]
  rhsContracting := [0]
  lhsNonContracting := [0]
  rhsNonContracting := [1]
  lhsBatch := []
  rhsBatch := []
  wf := dot_S3200000x3_S3x3_S3200000x3_1_0_0_1_n_n_wf

class Facts : Prop extends Facts₀ where

variable [Facts]
-- ==== Proof.Harmonics.lean ====
/-
  The function both programs compute, written once over plain arrays.

  An edge n joins node src n to node dst n (the two rows of the index array). Its displacement is
      v_j(n) = (pos[dst n, j] - pos[src n, j]) + Σ_i shift[n, i] · cell[0, i, j],
  its direction u(n) = v(n) / max(‖v(n)‖, D) with D the reference's small positive clamp, and the result row n is the
  sixteen real spherical harmonics of degree at most three of u(n), each degree scaled by the square root of its
  dimension; every coefficient is the float word the two programs share, read as the extended real it denotes.
-/
import Idealize.ShloMosaic.PureOps.Ideal
import Idealize.ShloMosaic.Lib.ValueIdx

noncomputable section

namespace Cert.SH

open Idealize.ShloMosaic Idealize.ShloMosaic.ValueIdx
open scoped BigOperators

/-- A float word both programs spell, as the extended real it denotes. -/
abbrev lit (b : BitVec 32) : EReal := Ideal.ofBits .f32 b

/-! ## The harmonics of a direction (x, y, z) -/

/-- x² + z², the part of the squared length off the polar axis y. -/
def offAxis (x z : EReal) : EReal := x * x + z * z

/-- The five harmonics of degree two, before the degree's scale: √3·x·z, √3·x·y, y² - (x² + z²)/2, √3·y·z, (√3/2)(z² - x²). -/
def deg2 (x y z : EReal) : Fin 5 → EReal
  | 0 => lit 0x3FDDB3D7#32 * x * z
  | 1 => lit 0x3FDDB3D7#32 * x * y
  | 2 => y * y - lit 0x3F000000#32 * offAxis x z
  | 3 => lit 0x3FDDB3D7#32 * y * z
  | 4 => lit 0x3F5DB3D7#32 * (z * z - x * x)

/-- The seven harmonics of degree three, before the degree's scale, by the recursion from degree two. -/
def deg3 (x y z : EReal) : Fin 7 → EReal
  | 0 => lit 0x3F8A417C#32 * (deg2 x y z 0 * z + deg2 x y z 4 * x)
  | 1 => lit 0x402953FD#32 * deg2 x y z 0 * y
  | 2 => lit 0x3FCF623A#32 * (lit 0x40800000#32 * (y * y) - offAxis x z) * x
  | 3 => lit 0x3FA953FD#32 * y * (lit 0x40000000#32 * (y * y) - lit 0x40400000#32 * offAxis x z)
  | 4 => lit 0x3FCF623A#32 * z * (lit 0x40800000#32 * (y * y) - offAxis x z)
  | 5 => lit 0x402953FD#32 * deg2 x y z 4 * y
  | 6 => lit 0x3F8A417C#32 * (deg2 x y z 4 * z - deg2 x y z 0 * x)

/-- The sixteen harmonics of a direction: 1; √3·(x, y, z); √5·(degree two); √7·(degree three). -/
def harm (x y z : EReal) : Fin 16 → EReal :=
  ![lit 0x3F800000#32,
    lit 0x3FDDB3D7#32 * x, lit 0x3FDDB3D7#32 * y, lit 0x3FDDB3D7#32 * z,
    lit 0x400F1BBD#32 * deg2 x y z 0, lit 0x400F1BBD#32 * deg2 x y z 1, lit 0x400F1BBD#32 * deg2 x y z 2,
    lit 0x400F1BBD#32 * deg2 x y z 3, lit 0x400F1BBD#32 * deg2 x y z 4,
    lit 0x402953FD#32 * deg3 x y z 0, lit 0x402953FD#32 * deg3 x y z 1, lit 0x402953FD#32 * deg3 x y z 2,
    lit 0x402953FD#32 * deg3 x y z 3, lit 0x402953FD#32 * deg3 x y z 4, lit 0x402953FD#32 * deg3 x y z 5,
    lit 0x402953FD#32 * deg3 x y z 6]

/-! ## The arrays -/

abbrev SPos : Shape := ⟨2, ![100000, 3]⟩
abbrev SEnds : Shape := ⟨2, ![2, 3200000]⟩
abbrev SCell : Shape := ⟨3, ![1, 3, 3]⟩
abbrev SShift : Shape := ⟨2, ![3200000, 3]⟩
abbrev SOut : Shape := ⟨2, ![3200000, 16]⟩

/-- The node a word names: the word read signed and kept inside the table (for a word in range, the word itself). -/
def node (w : BitVec 32) : Fin 100000 := ⟨min w.toInt.toNat 99999, by omega⟩

/-- Every endpoint word names a node of the table: 0 ≤ w < 100000, signed, as the precondition's two comparisons say it. -/
def InRange (ends : IVec SEnds 32) : Prop :=
  ∀ (r : Fin 2) (n : Fin 3200000),
    IntOp.cmpi .sge (ends (ix2 r n)) 0#32 = 1#1 ∧ IntOp.cmpi .slt (ends (ix2 r n)) 100000#32 = 1#1

/-- Component j of edge n's displacement: the endpoints' difference plus the periodic shift carried through the cell. -/
def disp (pos : FVec Ideal SPos .f32) (ends : IVec SEnds 32) (cell : FVec Ideal SCell .f32) (shift : FVec Ideal SShift .f32)
    (n : Fin 3200000) (j : Fin 3) : EReal :=
  (pos (ix2 (node (ends (ix2 1 n))) j) - pos (ix2 (node (ends (ix2 0 n))) j))
    + ∑ i : Fin 3, shift (ix2 n i) * cell (ix3 0 i j)

/-- The same displacement with the cell term written out term by term, cell entry first (the order one program multiplies in). -/
theorem disp_eq (pos : FVec Ideal SPos .f32) (ends : IVec SEnds 32) (cell : FVec Ideal SCell .f32) (shift : FVec Ideal SShift .f32)
    (n : Fin 3200000) (j : Fin 3) :
    disp pos ends cell shift n j
      = (pos (ix2 (node (ends (ix2 1 n))) j) - pos (ix2 (node (ends (ix2 0 n))) j))
        + ((cell (ix3 0 0 j) * shift (ix2 n 0) + cell (ix3 0 1 j) * shift (ix2 n 1)) + cell (ix3 0 2 j) * shift (ix2 n 2)) := by
  unfold disp
  rw [Fin.sum_univ_three, mul_comm (shift (ix2 n 0)), mul_comm (shift (ix2 n 1)), mul_comm (shift (ix2 n 2))]

/-- The length the reference divides by: the displacement's norm, kept at or above the clamp D. -/
def clampedNorm (v : Fin 3 → EReal) : EReal :=
  max (Ideal.sqrt (lit 0x00000000#32 + ∑ j : Fin 3, v j * v j)) (lit 0x2B8CBCCC#32)

/-- Component j of edge n's direction. -/
def dir (pos : FVec Ideal SPos .f32) (ends : IVec SEnds 32) (cell : FVec Ideal SCell .f32) (shift : FVec Ideal SShift .f32)
    (n : Fin 3200000) (j : Fin 3) : EReal :=
  Ideal.div (disp pos ends cell shift n j) (clampedNorm (disp pos ends cell shift n))

/-- THE RESULT: row n holds the sixteen harmonics of edge n's direction. -/
def edgeHarmonics (pos : FVec Ideal SPos .f32) (ends : IVec SEnds 32) (cell : FVec Ideal SCell .f32) (shift : FVec Ideal SShift .f32) :
    FVec Ideal SOut .f32 :=
  fun i => harm (dir pos ends cell shift (i 0) 0) (dir pos ends cell shift (i 0) 1) (dir pos ends cell shift (i 0) 2) (i 1)

theorem edgeHarmonics_apply (pos : FVec Ideal SPos .f32) (ends : IVec SEnds 32) (cell : FVec Ideal SCell .f32) (shift : FVec Ideal SShift .f32)
    (n : Fin 3200000) (k : Fin 16) :
    edgeHarmonics pos ends cell shift (ix2 n k)
      = harm (dir pos ends cell shift n 0) (dir pos ends cell shift n 1) (dir pos ends cell shift n 2) k := rfl

end Cert.SH

end
-- ==== Proof.ClampLaw.lean ====
/-
  The one law that joins the two programs' normalizations.

  One program scales a displacement v by 1/√(max(‖v‖², D²)); the other divides it by max(‖v‖, D), with D > 0 the clamp.
  Since the square root is monotone and √(D²) = D, the two lengths are the same number, and multiplying by a positive
  real's reciprocal is dividing by it. On the extended reals the law needs no finiteness: if a component of v is
  infinite then ‖v‖² is +∞, the reciprocal root of +∞ is 0, and dividing by +∞ also multiplies by 0.
-/
import proofs.«420859_j42193758716383_3_alg».proof.Proof.Harmonics
import Idealize.ShloMosaic.PureOps.Ideal.Laws

noncomputable section

namespace Cert.SH

open Idealize.ShloMosaic
open scoped BigOperators

/-- The clamp D, the real the reference's word denotes: 2305843 · 2⁻⁶¹. -/
def clampD : ℝ := 2305843 / 2305843009213693952

theorem clampD_pos : 0 < clampD := by unfold clampD; norm_num

/-- The reference's clamp word denotes D. -/
theorem lit_clamp : lit 0x2B8CBCCC#32 = ((clampD : ℝ) : EReal) := by
  unfold clampD
  simp [lit, Ideal.ofBits, Ideal.ieee, -EReal.coe_mul]; norm_num

/-- The zero word denotes 0. -/
theorem lit_zero : lit 0x00000000#32 = 0 := Ideal.ofBits_zero_f32

/-- The rational the squared clamp is named as is D². -/
theorem clamp_sq : (5316911940649 / 5316911983139663491615228241121378304 : ℝ) = clampD * clampD := by
  unfold clampD; norm_num

/-- A square on the extended reals is +∞ or a nonnegative real. -/
theorem mul_self_cases (a : EReal) : a * a = ⊤ ∨ ∃ r : ℝ, 0 ≤ r ∧ a * a = (r : EReal) := by
  induction a using EReal.rec with
  | bot => exact Or.inl EReal.bot_mul_bot
  | coe r => exact Or.inr ⟨r * r, mul_self_nonneg r, (EReal.coe_mul r r).symm⟩
  | top => exact Or.inl EReal.top_mul_top

/-- So is a sum of two such. -/
theorem add_cases {p q : EReal} (hp : p = ⊤ ∨ ∃ r : ℝ, 0 ≤ r ∧ p = (r : EReal)) (hq : q = ⊤ ∨ ∃ r : ℝ, 0 ≤ r ∧ q = (r : EReal)) :
    p + q = ⊤ ∨ ∃ r : ℝ, 0 ≤ r ∧ p + q = (r : EReal) := by
  rcases hp with rfl | ⟨r, hr, rfl⟩
  · rcases hq with rfl | ⟨s, _, rfl⟩
    · exact Or.inl (EReal.top_add_top)
    · exact Or.inl (EReal.top_add_coe s)
  · rcases hq with rfl | ⟨s, hs, rfl⟩
    · exact Or.inl (EReal.coe_add_top r)
    · exact Or.inr ⟨r + s, add_nonneg hr hs, (EReal.coe_add r s).symm⟩

/-- The squared length of a displacement is +∞ or a nonnegative real. -/
theorem sqLen_cases (v : Fin 3 → EReal) :
    v 0 * v 0 + v 1 * v 1 + v 2 * v 2 = ⊤ ∨ ∃ r : ℝ, 0 ≤ r ∧ v 0 * v 0 + v 1 * v 1 + v 2 * v 2 = (r : EReal) :=
  add_cases (add_cases (mul_self_cases _) (mul_self_cases _)) (mul_self_cases _)

/-- The length the reference divides by, over the squared length written as the kernel writes it. -/
theorem clampedNorm_eq (v : Fin 3 → EReal) :
    clampedNorm v = max (Ideal.sqrt (v 0 * v 0 + v 1 * v 1 + v 2 * v 2)) ((clampD : ℝ) : EReal) := by
  unfold clampedNorm
  rw [lit_zero, zero_add, lit_clamp, Fin.sum_univ_three]

/-- The coercion of the reals into the extended reals is monotone, so it carries a maximum to the maximum. -/
theorem coe_max (a b : ℝ) : ((max a b : ℝ) : EReal) = max (a : EReal) (b : EReal) :=
  EReal.coe_strictMono.monotone.map_max

/-- THE LAW: scaling by the reciprocal root of the squared length clamped at D² is dividing by the length clamped at D. -/
theorem normalize_eq (v : Fin 3 → EReal) (x e : EReal) (he : e = ((clampD * clampD : ℝ) : EReal)) :
    x * Ideal.rsqrt (max (v 0 * v 0 + v 1 * v 1 + v 2 * v 2) e) = Ideal.div x (clampedNorm v) := by
  rw [clampedNorm_eq, he]
  rcases sqLen_cases v with h | ⟨r, hr, h⟩
  · rw [h, max_eq_left le_top, Ideal.rsqrt_top, mul_zero, Ideal.sqrt_top, max_eq_left le_top, Ideal.div,
      if_neg EReal.top_ne_zero, EReal.inv_top, mul_zero]
  · rw [h, ← coe_max, Ideal.rsqrt_coe, Ideal.sqrt_coe, if_neg (not_lt.mpr hr), ← coe_max]
    have hD := clampD_pos
    have hM : 0 < max r (clampD * clampD) := lt_of_lt_of_le (mul_pos hD hD) (le_max_right _ _)
    have hroot : Real.sqrt (max r (clampD * clampD)) = max (Real.sqrt r) clampD := by
      rw [(show Monotone Real.sqrt from fun _ _ h => Real.sqrt_le_sqrt h).map_max, Real.sqrt_mul_self hD.le]
    have hlen : max (Real.sqrt r) clampD ≠ 0 := (lt_of_lt_of_le hD (le_max_right _ _)).ne'
    rw [if_neg (not_lt.mpr hM.le), if_neg hM.ne', hroot, Ideal.div_coe hlen, one_div]

end Cert.SH

end
-- ==== Proof.KernelPayload.lean ====
/-
  What the kernel's body stores, read at an index. The body loads the three rows of its [3, 12800] block (the components of
  12800 displacements), scales each by the reciprocal root of the squared length clamped below, evaluates the sixteen
  harmonics row by row, stacks the sixteen rows and transposes: entry (e, k) of the stored [12800, 16] block is
  harmonic k of the scaled displacement of lane e.
-/
import proofs.«420859_j42193758716383_3_alg».proof.Proof.Gen.KernelIdeal.Frame
import proofs.«420859_j42193758716383_3_alg».proof.Proof.Harmonics
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.TcCoe
open Idealize.ShloMosaic.ValueIdx

/-- The squared clamp as the kernel names it. -/
abbrev epsSq : EReal := Named.named (F := Ideal) κ "eps_sq" (φ := .f32) 0x179ABE15#32

/-- Component j of lane e's displacement scaled the kernel's way, over the three loaded rows. -/
def scaledOf (v0 v2 v4 : Vec Ideal S1x12800 .f32) (e : Fin 12800) : Fin 3 → EReal :=
  fun j => (![v0, v2, v4] j) (ix2 0 e)
    * Ideal.rsqrt (max (v0 (ix2 0 e) * v0 (ix2 0 e) + v2 (ix2 0 e) * v2 (ix2 0 e) + v4 (ix2 0 e) * v4 (ix2 0 e)) epsSq)

/-- The same over the block: row j of the block is component j. -/
def scaled (x0 : Vec Ideal S3x12800 .f32) (e : Fin 12800) : Fin 3 → EReal :=
  fun j => x0 (ix2 j e)
    * Ideal.rsqrt (max (x0 (ix2 0 e) * x0 (ix2 0 e) + x0 (ix2 1 e) * x0 (ix2 1 e) + x0 (ix2 2 e) * x0 (ix2 2 e)) epsSq)

/-! ## The loads -/

theorem hz : (![0, 0] : Fin 2 → Nat) = fun _ => 0 := funext fun a => by fin_cases a <;> rfl

/-- Row 0 of the block, loaded as a [1, 12800] vector, holds the block's entries (0, e). -/
theorem ld_row0 (x0 : Vec Ideal S3x12800 .f32) (e : Fin 12800) : View.ld x0 r0_0 (ix2 0 e) = x0 (ix2 0 e) := by
  show x0 (r0_0.idx (ix2 0 e)) = x0 (ix2 0 e)
  refine congrArg x0 (funext fun a => Fin.ext ?_)
  match a with
  | ⟨0, _⟩ => show 0 + 1 * 0 = 0; rfl
  | ⟨1, _⟩ => show 0 + 1 * e.val = e.val; omega

theorem ld_row1 (x0 : Vec Ideal S3x12800 .f32) (e : Fin 12800) : View.ld x0 r0_1 (ix2 0 e) = x0 (ix2 1 e) := by
  show x0 (r0_1.idx (ix2 0 e)) = x0 (ix2 1 e)
  refine congrArg x0 (funext fun a => Fin.ext ?_)
  match a with
  | ⟨0, _⟩ => show 1 + 1 * 0 = 1; rfl
  | ⟨1, _⟩ => show 0 + 1 * e.val = e.val; omega

theorem ld_row2 (x0 : Vec Ideal S3x12800 .f32) (e : Fin 12800) : View.ld x0 r0_2 (ix2 0 e) = x0 (ix2 2 e) := by
  show x0 (r0_2.idx (ix2 0 e)) = x0 (ix2 2 e)
  refine congrArg x0 (funext fun a => Fin.ext ?_)
  match a with
  | ⟨0, _⟩ => show 2 + 1 * 0 = 2; rfl
  | ⟨1, _⟩ => show 0 + 1 * e.val = e.val; omega

/-! ## The scaled components -/

/-- A cast of a vector to its own shape is the vector. -/
theorem row_cast (v : Vec Ideal S1x12800 .f32) : k0_pay3 (F := Ideal) v = v := by
  unfold k0_pay3; exact shapeCast_self v _
theorem row_cast' (v : Vec Ideal S1x12800 .f32) : k0_pay4 (F := Ideal) v = v := by
  unfold k0_pay4; exact shapeCast_self v _
theorem row_cast'' (v : Vec Ideal S1x12800 .f32) : k0_pay5 (F := Ideal) v = v := by
  unfold k0_pay5; exact shapeCast_self v _

/-- The common factor: the reciprocal root of the clamped squared length, lane by lane. -/
theorem factor_apply (v0 v2 v4 : Vec Ideal S1x12800 .f32) (i : S1x12800.Idx) :
    k0_pay6 (F := Ideal) v0 v2 v4 i
      = Ideal.rsqrt (max (v0 i * v0 i + v2 i * v2 i + v4 i * v4 i) epsSq) := by
  unfold k0_pay6
  rw [row_cast, row_cast', row_cast'']
  rfl

theorem x_apply (v0 v2 v4 : Vec Ideal S1x12800 .f32) (e : Fin 12800) :
    k0_pay7 (F := Ideal) v0 v2 v4 (ix2 0 e) = scaledOf v0 v2 v4 e 0 := by
  unfold k0_pay7
  rw [row_cast]
  show v0 (ix2 0 e) * k0_pay6 (F := Ideal) v0 v2 v4 (ix2 0 e) = _
  rw [factor_apply]; rfl

theorem y_apply (v0 v2 v4 : Vec Ideal S1x12800 .f32) (e : Fin 12800) :
    k0_pay8 (F := Ideal) v0 v2 v4 (ix2 0 e) = scaledOf v0 v2 v4 e 1 := by
  unfold k0_pay8
  rw [row_cast']
  show v2 (ix2 0 e) * k0_pay6 (F := Ideal) v0 v2 v4 (ix2 0 e) = _
  rw [factor_apply]; rfl

theorem z_apply (v0 v2 v4 : Vec Ideal S1x12800 .f32) (e : Fin 12800) :
    k0_pay9 (F := Ideal) v0 v2 v4 (ix2 0 e) = scaledOf v0 v2 v4 e 2 := by
  unfold k0_pay9
  rw [row_cast'']
  show v4 (ix2 0 e) * k0_pay6 (F := Ideal) v0 v2 v4 (ix2 0 e) = _
  rw [factor_apply]; rfl

/-! ## The sixteen rows -/

/-- The sixteen rows the body stacks, over the three loaded rows. -/
def rows (v0 v2 v4 : Vec Ideal S1x12800 .f32) : Fin 16 → Vec Ideal S1x12800 .f32 :=
  ![k0_pay14 (F := Ideal), k0_pay15 v0 v2 v4, k0_pay16 v0 v2 v4, k0_pay17 v0 v2 v4,
    k0_pay23 (k0_pay18 v0 v2 v4), k0_pay24 (k0_pay19 v0 v2 v4), k0_pay25 (k0_pay20 v0 v2 v4), k0_pay26 (k0_pay21 v0 v2 v4),
    k0_pay27 (k0_pay22 v0 v2 v4),
    mulf (broadcast S1x12800 (Scalar.ofBits .f32 0x402953FD#32)) (k0_pay28 (k0_pay7 v0 v2 v4) (k0_pay9 v0 v2 v4) (k0_pay18 v0 v2 v4) (k0_pay22 v0 v2 v4)),
    mulf (broadcast S1x12800 (Scalar.ofBits .f32 0x402953FD#32)) (k0_pay29 (k0_pay8 v0 v2 v4) (k0_pay18 v0 v2 v4)),
    mulf (broadcast S1x12800 (Scalar.ofBits .f32 0x402953FD#32)) (k0_pay30 (k0_pay7 v0 v2 v4) (k0_pay11 v0 v2 v4) (k0_pay13 v0 v2 v4)),
    mulf (broadcast S1x12800 (Scalar.ofBits .f32 0x402953FD#32)) (k0_pay31 (k0_pay8 v0 v2 v4) (k0_pay11 v0 v2 v4) (k0_pay13 v0 v2 v4)),
    mulf (broadcast S1x12800 (Scalar.ofBits .f32 0x402953FD#32)) (k0_pay32 (k0_pay9 v0 v2 v4) (k0_pay11 v0 v2 v4) (k0_pay13 v0 v2 v4)),
    mulf (broadcast S1x12800 (Scalar.ofBits .f32 0x402953FD#32)) (k0_pay33 (k0_pay8 v0 v2 v4) (k0_pay22 v0 v2 v4)),
    mulf (broadcast S1x12800 (Scalar.ofBits .f32 0x402953FD#32))
      (k0_pay1 (k0_pay34 (k0_pay7 v0 v2 v4) (k0_pay9 v0 v2 v4) (k0_pay18 v0 v2 v4) (k0_pay22 v0 v2 v4)) (Scalar.ofBits .f32 0x3F8A417C#32))]

/-- Row k at lane e is harmonic k of the three scaled components at lane e: every operation of the rows is lane by lane,
    and the harmonics were written in the rows' own order of operations. -/
theorem rows_apply (v0 v2 v4 : Vec Ideal S1x12800 .f32) (e : Fin 12800) (k : Fin 16) :
    rows v0 v2 v4 k (ix2 0 e)
      = Cert.SH.harm (k0_pay7 (F := Ideal) v0 v2 v4 (ix2 0 e)) (k0_pay8 (F := Ideal) v0 v2 v4 (ix2 0 e))
          (k0_pay9 (F := Ideal) v0 v2 v4 (ix2 0 e)) k := by
  fin_cases k <;> rfl

/-! ## The stored block -/

/-- The loaded rows are the block's rows, so the scaled components over them are the block's. -/
theorem scaledOf_ld (x0 : Vec Ideal S3x12800 .f32) (e : Fin 12800) (j : Fin 3) :
    scaledOf (View.ld x0 r0_0) (View.ld x0 r0_1) (View.ld x0 r0_2) e j = scaled x0 e j := by
  unfold scaledOf scaled
  rw [ld_row0, ld_row1, ld_row2]
  fin_cases j
  · exact congrArg (· * _) (ld_row0 x0 e)
  · exact congrArg (· * _) (ld_row1 x0 e)
  · exact congrArg (· * _) (ld_row2 x0 e)

/-- The stored value, over the three loaded rows: the sixteen rows stacked, then transposed; entry (e, k) is row k at lane e. -/
theorem block_apply (v0 v2 v4 : Vec Ideal S1x12800 .f32) (e : Fin 12800) (k : Fin 16) :
    k0_pay2 (F := Ideal) (rows v0 v2 v4 0) (rows v0 v2 v4 1) (rows v0 v2 v4 2) (rows v0 v2 v4 3) (rows v0 v2 v4 4) (rows v0 v2 v4 5)
        (rows v0 v2 v4 6) (rows v0 v2 v4 7) (rows v0 v2 v4 8)
        (k0_pay28 (k0_pay7 v0 v2 v4) (k0_pay9 v0 v2 v4) (k0_pay18 v0 v2 v4) (k0_pay22 v0 v2 v4))
        (k0_pay29 (k0_pay8 v0 v2 v4) (k0_pay18 v0 v2 v4))
        (k0_pay30 (k0_pay7 v0 v2 v4) (k0_pay11 v0 v2 v4) (k0_pay13 v0 v2 v4))
        (k0_pay31 (k0_pay8 v0 v2 v4) (k0_pay11 v0 v2 v4) (k0_pay13 v0 v2 v4))
        (k0_pay32 (k0_pay9 v0 v2 v4) (k0_pay11 v0 v2 v4) (k0_pay13 v0 v2 v4))
        (k0_pay33 (k0_pay8 v0 v2 v4) (k0_pay22 v0 v2 v4))
        (k0_pay1 (k0_pay34 (k0_pay7 v0 v2 v4) (k0_pay9 v0 v2 v4) (k0_pay18 v0 v2 v4) (k0_pay22 v0 v2 v4)) (Scalar.ofBits .f32 0x3F8A417C#32))
        (ix2 e k)
      = Cert.SH.harm (scaledOf v0 v2 v4 e 0) (scaledOf v0 v2 v4 e 1) (scaledOf v0 v2 v4 e 2) k := by
  unfold k0_pay2
  refine (transpose_ix2_apply _ _ e k).trans ?_
  refine (concatenate_ofFn_unit_apply (t := S16x12800) (s₁ := S1x12800) 0 (rows v0 v2 v4) _ rfl rfl (ix2 k e) k rfl (ix2 0 e)
    (fun b hb => ?_)).trans ?_
  · match b with
    | ⟨0, _⟩ => exact absurd rfl hb
    | ⟨1, _⟩ => rfl
  · rw [rows_apply, x_apply, y_apply, z_apply]

/-- WHAT THE BODY LEAVES in the output buffer, at (e, k): harmonic k of lane e's scaled displacement. -/
theorem out_apply (x0 : Vec Ideal S3x12800 .f32) (e : Fin 12800) (k : Fin 16) :
    out0_1 (F := Ideal) x0 (ix2 e k) = Cert.SH.harm (scaled x0 e 0) (scaled x0 e 1) (scaled x0 e 2) k := by
  unfold out0_1
  rw [View.canon_unit_zero hz]
  refine (block_apply (View.ld x0 r0_0) (View.ld x0 r0_1) (View.ld x0 r0_2) e k).trans ?_
  rw [scaledOf_ld, scaledOf_ld, scaledOf_ld]

end Cert.KernelIdeal.Payload

end
-- ==== Proof.EndWords.lean ====
/-
  An endpoint word in range, 0 ≤ w < 100000 read signed: it is not negative, so neither program's wrap-around of a
  negative index moves it; it is at most the last node 99999, so it passes the range test of a filling gather; and
  clamping it into the table leaves it alone.
-/
import proofs.«420859_j42193758716383_3_alg».proof.Proof.Harmonics
import Idealize.ShloMosaic.Lib.StableHlo.Predicate

noncomputable section

namespace Cert.SH

open Idealize.ShloMosaic Idealize.ShloMosaic.ValueIdx Idealize.ShloMosaic.StableHlo.Predicate

theorem ofBool_eq_zero_iff (b : Bool) : BitVec.ofBool b = 0#1 ↔ b = false := by cases b <;> decide

/-- The signed value of a word in range lies in [0, 100000). -/
theorem toInt_bounds {w : BitVec 32} (h0 : IntOp.cmpi .sge w 0#32 = 1#1) (h1 : IntOp.cmpi .slt w 100000#32 = 1#1) :
    0 ≤ w.toInt ∧ w.toInt < 100000 := by
  unfold IntOp.cmpi at h0 h1
  rw [ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- It is not negative. -/
theorem not_neg {w : BitVec 32} (h0 : IntOp.cmpi .sge w 0#32 = 1#1) (h1 : IntOp.cmpi .slt w 100000#32 = 1#1) :
    IntOp.cmpi .slt w 0#32 = 0#1 := by
  have hb := toInt_bounds h0 h1
  unfold IntOp.cmpi
  rw [ofBool_eq_zero_iff]
  simp only [BitVec.slt, decide_eq_false_iff_not]
  have e0 : (0#32 : BitVec 32).toInt = 0 := by decide
  rw [e0]; omega

/-- It is at least 0 and at most the last node, as a filling gather tests it. -/
theorem in_table {w : BitVec 32} (h0 : IntOp.cmpi .sge w 0#32 = 1#1) (h1 : IntOp.cmpi .slt w 100000#32 = 1#1) :
    IntOp.cmpi .sle w 99999#32 = 1#1 := by
  have hb := toInt_bounds h0 h1
  unfold IntOp.cmpi
  rw [ofBool_eq_one_iff]
  simp only [BitVec.sle, decide_eq_true_eq]
  have e1 : (99999#32 : BitVec 32).toInt = 99999 := by decide
  rw [e1]; omega

end Cert.SH

end
-- ==== Proof.LibGatherTable.lean ====
/-
  A gather of whole rows, or of whole columns, of a rank-two table, read at an index.

  The operation takes one start index per result row (or column), read as a signed integer and clamped into the table's
  range on the gathered axis; the other axis is copied whole. So result element (r, c) of a row gather is the table's
  element (clamp(idx r), c), and result element (c, r) of a column gather is the table's element (c, clamp(idx r)).
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- Any element of a list known to be a singleton is that singleton's element. -/
theorem getElem_of_eq_singleton {β : Type} {l : List β} {b : β} (h : l = [b]) (k : Nat) (hk : k < l.length) : l[k] = b := by
  subst h
  have : k = 0 := by simpa using hk
  subst this; rfl

/-- ROWS. Table [N, C], start indices the column [R, 1], result [R, C]: the gathered axis 0 is collapsed and start-indexed,
    axis 1 is the one offset axis, no batching, the index vector on axis 1 of the start indices. Element (r, c) of the
    result is the table's at (idx r clamped into [0, N - 1], c). -/
theorem gather_rows_apply {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r 0)).toInt.toNat (N - 1), by omega⟩ c) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = min (idx (ix2 r 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.zero_add, Nat.add_zero]
    rw [getElem_of_eq_singleton hoff]
    rfl

/-- COLUMNS. Table [C, N], start indices the column [R, 1], result [C, R]: the gathered axis 1 is collapsed and
    start-indexed, axis 0 is the one offset axis, no batching, the index vector on axis 1 of the start indices. Element
    (c, r) of the result is the table's at (c, idx r clamped into [0, N - 1]). -/
theorem gather_cols_apply {N C R w : Nat} (d : GatherDims ⟨2, ![C, N]⟩ ⟨2, ![R, 1]⟩ ⟨2, ![C, R]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![R, 1]⟩ w) (c : Fin C) (r : Fin R) (hN : 0 < N) :
    Host.gather d x idx (ix2 c r) = x (ix2 c ⟨min (idx (ix2 r 0)).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 c r) idx 0 + d.batchCoord (ix2 c r) 0 + d.offCoord (ix2 c r) 0 = c.val
    rw [GatherDims.batchCoord_eq_zero _ _ _ (hb 0)]
    unfold GatherDims.start GatherDims.offCoord
    rw [dif_neg hm, dif_pos hk]
    simp only [Nat.zero_add, Nat.add_zero]
    rw [getElem_of_eq_singleton hoff]
    rfl
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c r) idx 1 + d.batchCoord (ix2 c r) 1 + d.offCoord (ix2 c r) 1 = min (idx (ix2 r 0)).toInt.toNat (N - 1)
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [1] := by
        show Shape.kept _ d.offsetDims = [1]
        rw [hoff]; rfl
      rw [getElem_of_eq_singleton hbd]
      rfl
    | ⟨1, _⟩ =>
      unfold GatherDims.siIdx
      rw [dif_pos (by rw [hivd])]
      apply Fin.ext
      show List.idxOf (1 : Fin 2) d.startIndexMap = 0
      rw [hsim]; simp

end Idealize.ShloMosaic.GatherTable

end
-- ==== Proof.KernelEdge.lean ====
/-
  What the kernel's launch stages: the array its host operations leave for the region holds, at (j, n), component j of
  edge n's displacement. The host side gathers both endpoints' columns from the transposed position table (a gather that
  fills where the index is out of range: in range it is the plain gather), subtracts, and adds the cell term as three
  products.
-/
import proofs.«420859_j42193758716383_3_alg».proof.Proof.Gen.KernelIdeal.Frame
import proofs.«420859_j42193758716383_3_alg».proof.Proof.Harmonics
import proofs.«420859_j42193758716383_3_alg».proof.Proof.EndWords
import proofs.«420859_j42193758716383_3_alg».proof.Proof.LibGatherTable
import Idealize.ShloMosaic.Lib.Pipeline.Value
import Idealize.ShloMosaic.Lib.ValueLayout
import Idealize.ShloMosaic.Lib.StableHlo.Run
import Idealize.ShloMosaic.PureOps.Reduce

noncomputable section

namespace Cert.KernelIdeal.HostEdge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The pieces of the staged array -/

section Pieces

variable {F : FTy → Type} [FloatOps F]

/-- Row 0 of the endpoint array, the edges' source words, as a flat vector. -/
def srcWords (ends : IVec S2x3200000 32) : IVec S3200000 32 :=
  shapeCast S3200000 (extractStridedSlice S1x3200000 ![0, 0] ends slices_S2x3200000_S1x3200000_0_0) shapeCasts_S1x3200000_S3200000

/-- Row 1 of the endpoint array, the edges' destination words, as a flat vector. -/
def dstWords (ends : IVec S2x3200000 32) : IVec S3200000 32 :=
  shapeCast S3200000 (extractStridedSlice S1x3200000 ![1, 0] ends slices_S2x3200000_S1x3200000_1_0) shapeCasts_S1x3200000_S3200000

/-- The index column built from a flat vector of words: a negative word is moved up by the table's length 100000, any
    other word is kept, and the vector is laid as a column. -/
def column (w : IVec S3200000 32) : IVec S3200000x1 32 :=
  broadcastInDim S3200000x1 ![0] bcast_S3200000_S3200000x1_0
    (select (cmpi .slt w (broadcastInDim S3200000 ![] bcast_S_S3200000 (constantI S_ 32 0#32)))
      (addi w (broadcastInDim S3200000 ![] bcast_S_S3200000 (constantI S_ 32 100000#32))) w)

/-- The range test of an index column, one bit per edge: 0 ≤ index and index ≤ 99999, the (one-element) row of the
    column folded by "and". -/
def inTable (col : IVec S3200000x1 32) : IVec S3200000 1 :=
  Host.reduce IntOp.andi
    (andi (cmpi .sge col (broadcastInDim S3200000x1 ![] bcast_S_S3200000x1 (constantI S_ 32 0#32)))
      (cmpi .sle col (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- A gather under a mask: column n of the result is the table's column named by index n where the mask's bit n is 1, and
    the fill word (a NaN) elsewhere. -/
def fillGather (mask : IVec S3200000 1) (tbl : FVec F S3x100000 .f32) (col : IVec S3200000x1 32) : FVec F S3x3200000 .f32 :=
  select (broadcastInDim S3x3200000 ![1] bcast_S3200000_S3x3200000_1 mask)
    (Host.gather gather_S3x100000_S3200000x1_S3x3200000_0_1_n_n_1_1_31 tbl col)
    (broadcastInDim S3x3200000 ![] bcast_S_S3x3200000 (constant S_ .f32 0x7FC00000#32))

/-- The filling gather: the gather under the mask of the index column's own range test. -/
def take (tbl : FVec F S3x100000 .f32) (col : IVec S3200000x1 32) : FVec F S3x3200000 .f32 :=
  fillGather (inTable col) tbl col

/-- One product of the cell term: a row of the cell matrix stood up as a column and spread over the edges, times a row
    of the transposed shifts spread over the three components. -/
def spread (cellRow : FVec F S1x3 .f32) (shiftRow : FVec F S1x3200000 .f32) : FVec F S3x3200000 .f32 :=
  mulf (broadcastInDim S3x3200000 ![0, 1] bcast_S3x1_S3x3200000_0_1 (transpose S3x1 [1, 0] cellRow transposes_S1x3_S3x1_1_0))
    (broadcastInDim S3x3200000 ![0, 1] bcast_S1x3200000_S3x3200000_0_1 shiftRow)

/-- The cell term: the three products summed in order, ((first + second) + third). -/
def cellTerm (cell : FVec F S3x3 .f32) (shiftT : FVec F S3x3200000 .f32) : FVec F S3x3200000 .f32 :=
  addf
    (addf
      (spread (extractStridedSlice S1x3 ![0, 0] cell slices_S3x3_S1x3_0_0)
        (extractStridedSlice S1x3200000 ![0, 0] shiftT slices_S3x3200000_S1x3200000_0_0))
      (spread (extractStridedSlice S1x3 ![1, 0] cell slices_S3x3_S1x3_1_0)
        (extractStridedSlice S1x3200000 ![1, 0] shiftT slices_S3x3200000_S1x3200000_1_0)))
    (spread (extractStridedSlice S1x3 ![2, 0] cell slices_S3x3_S1x3_2_0)
      (extractStridedSlice S1x3200000 ![2, 0] shiftT slices_S3x3200000_S1x3200000_2_0))

/-- The staged array as one function of the four argument arrays: the destination columns less the source columns of
    the transposed position table, plus the cell term over the cell's first matrix and the transposed shifts. -/
def staged (pos : FVec F S100000x3 .f32) (ends : IVec S2x3200000 32) (cell : FVec F S1x3x3 .f32) (shift : FVec F S3200000x3 .f32) :
    FVec F S3x3200000 .f32 :=
  addf
    (subf (take (transpose S3x100000 [1, 0] pos transposes_S100000x3_S3x100000_1_0) (column (dstWords ends)))
      (take (transpose S3x100000 [1, 0] pos transposes_S100000x3_S3x100000_1_0) (column (srcWords ends))))
    (cellTerm (shapeCast S3x3 cell shapeCasts_S1x3x3_S3x3) (transpose S3x3200000 [1, 0] shift transposes_S3200000x3_S3x3200000_1_0))

end Pieces

/-! ## Reading the layout steps at an index -/

section Layout

variable {α : Type}

/-- A scalar spread over any shape reads the scalar everywhere. -/
theorem bcast_scalar_apply {t : Shape} (dims : Fin S_.rank → Fin t.rank) (h : S_.BroadcastsInDim t dims) (x : S_.Idx → α) (i : t.Idx) :
    broadcastInDim t dims h x i = x ix0 :=
  broadcastInDim_apply dims h x i ix0 (fun a => a.elim0)

/-- A flat vector laid as a column reads, at (n, 0), the vector at n. -/
theorem bcast_column_apply (x : S3200000.Idx → α) (n : Fin 3200000) :
    broadcastInDim S3200000x1 ![0] bcast_S3200000_S3200000x1_0 x (ix2 n (0 : Fin 1)) = x (ix1 n) :=
  broadcastInDim_apply _ _ x (ix2 n (0 : Fin 1)) (ix1 n) (fun a => match a with | ⟨0, _⟩ => rfl)

/-- A flat vector spread over the three components reads, at (j, n), the vector at n. -/
theorem bcast_rows_apply (x : S3200000.Idx → α) (j : Fin 3) (n : Fin 3200000) :
    broadcastInDim S3x3200000 ![1] bcast_S3200000_S3x3200000_1 x (ix2 j n) = x (ix1 n) :=
  broadcastInDim_apply _ _ x (ix2 j n) (ix1 n) (fun a => match a with | ⟨0, _⟩ => rfl)

/-- A column of three spread over the edges reads, at (j, n), the column at (j, 0). -/
theorem bcast_col3_apply (x : S3x1.Idx → α) (j : Fin 3) (n : Fin 3200000) :
    broadcastInDim S3x3200000 ![0, 1] bcast_S3x1_S3x3200000_0_1 x (ix2 j n) = x (ix2 j (0 : Fin 1)) :=
  broadcastInDim_apply _ _ x (ix2 j n) (ix2 j (0 : Fin 1)) (fun a => match a with | ⟨0, _⟩ => rfl | ⟨1, _⟩ => rfl)

/-- A row over the edges spread over the three components reads, at (j, n), the row at (0, n). -/
theorem bcast_row_apply (x : S1x3200000.Idx → α) (j : Fin 3) (n : Fin 3200000) :
    broadcastInDim S3x3200000 ![0, 1] bcast_S1x3200000_S3x3200000_0_1 x (ix2 j n) = x (ix2 (0 : Fin 1) n) :=
  broadcastInDim_apply _ _ x (ix2 j n) (ix2 (0 : Fin 1) n) (fun a => match a with | ⟨0, _⟩ => rfl | ⟨1, _⟩ => rfl)

/-- The source words at n are the endpoint array's entry (0, n). -/
theorem srcWords_apply (ends : IVec S2x3200000 32) (n : Fin 3200000) : srcWords ends (ix1 n) = ends (ix2 (0 : Fin 2) n) := by
  unfold srcWords
  refine (shapeCast_1a_a_apply _ _ n).trans ?_
  exact slice2_axis0_apply 0 ends _ (0 : Fin 1) n (0 : Fin 2) rfl

/-- The destination words at n are the endpoint array's entry (1, n). -/
theorem dstWords_apply (ends : IVec S2x3200000 32) (n : Fin 3200000) : dstWords ends (ix1 n) = ends (ix2 (1 : Fin 2) n) := by
  unfold dstWords
  refine (shapeCast_1a_a_apply _ _ n).trans ?_
  exact slice2_axis0_apply 1 ends _ (0 : Fin 1) n (1 : Fin 2) rfl

end Layout

/-! ## The index column and its range test, for words in range -/

/-- A word that is not negative goes into the column as it is. -/
theorem column_apply (w : IVec S3200000 32) (n : Fin 3200000) (h : IntOp.cmpi .slt (w (ix1 n)) 0#32 = 0#1) :
    column w (ix2 n (0 : Fin 1)) = w (ix1 n) := by
  unfold column
  refine (bcast_column_apply _ n).trans ?_
  show Scalar.select (IntOp.cmpi .slt (w (ix1 n)) 0#32) (IntOp.addi (w (ix1 n)) 100000#32) (w (ix1 n)) = w (ix1 n)
  rw [h, select_zero]

/-- A fold by "and" of words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A column all of whose indices lie in [0, 99999] passes the range test at every edge. -/
theorem inTable_eq_one (col : IVec S3200000x1 32)
    (hcol : ∀ n : Fin 3200000, IntOp.cmpi .sge (col (ix2 n (0 : Fin 1))) 0#32 = 1#1 ∧ IntOp.cmpi .sle (col (ix2 n (0 : Fin 1))) 99999#32 = 1#1)
    (n : Fin 3200000) : inTable col (ix1 n) = 1#1 := by
  unfold inTable
  rw [Host.reduce_eq_foldl]
  refine foldl_andi_ones _ (fun i => ?_) _
  obtain ⟨p, q, rfl⟩ : ∃ (p : Fin 3200000) (q : Fin 1), i = ix2 p q := ⟨i 0, i 1, eq_ix2 i⟩
  obtain rfl : q = 0 := Subsingleton.elim _ _
  show IntOp.andi (IntOp.cmpi .sge (col (ix2 p (0 : Fin 1))) 0#32) (IntOp.cmpi .sle (col (ix2 p (0 : Fin 1))) 99999#32) = 1#1
  rw [(hcol p).1, (hcol p).2]
  decide

/-! ## The filling gather and the cell term at an index (extended reals) -/

/-- The filling gather over a column whose indices all lie in [0, 99999] is the plain gather: at (j, n) the table's entry
    (j, node named by index n). -/
theorem take_apply (tbl : FVec Ideal S3x100000 .f32) (col : IVec S3200000x1 32)
    (hcol : ∀ n : Fin 3200000, IntOp.cmpi .sge (col (ix2 n (0 : Fin 1))) 0#32 = 1#1 ∧ IntOp.cmpi .sle (col (ix2 n (0 : Fin 1))) 99999#32 = 1#1)
    (j : Fin 3) (n : Fin 3200000) :
    take tbl col (ix2 j n) = tbl (ix2 j (Cert.SH.node (col (ix2 n (0 : Fin 1))))) := by
  unfold take fillGather
  rw [select_apply, bcast_rows_apply, inTable_eq_one col hcol n, select_one]
  refine (GatherTable.gather_cols_apply gather_S3x100000_S3200000x1_S3x3200000_0_1_n_n_1_1_31 rfl rfl rfl rfl rfl tbl col j n
    (by decide)).trans ?_
  exact congrArg tbl (congrArg (ix2 j) (Fin.ext rfl))

/-- One product of the cell term at (j, n): the cell row's entry j times the shift row's entry n. -/
theorem spread_apply (cellRow : FVec Ideal S1x3 .f32) (shiftRow : FVec Ideal S1x3200000 .f32) (j : Fin 3) (n : Fin 3200000) :
    spread cellRow shiftRow (ix2 j n) = cellRow (ix2 (0 : Fin 1) j) * shiftRow (ix2 (0 : Fin 1) n) := by
  unfold spread
  rw [mulf_apply, bcast_col3_apply, bcast_row_apply, transpose_ix2_apply]

/-- The cell term at (j, n): the three products of a cell entry (i, j) by the transposed shift's entry (i, n), summed in order. -/
theorem cellTerm_apply (cell : FVec Ideal S3x3 .f32) (shiftT : FVec Ideal S3x3200000 .f32) (j : Fin 3) (n : Fin 3200000) :
    cellTerm cell shiftT (ix2 j n)
      = (cell (ix2 (0 : Fin 3) j) * shiftT (ix2 (0 : Fin 3) n) + cell (ix2 (1 : Fin 3) j) * shiftT (ix2 (1 : Fin 3) n))
        + cell (ix2 (2 : Fin 3) j) * shiftT (ix2 (2 : Fin 3) n) := by
  unfold cellTerm
  rw [addf_apply, addf_apply, spread_apply, spread_apply, spread_apply,
    slice2_axis0_apply 0 cell _ (0 : Fin 1) j (0 : Fin 3) rfl, slice2_axis0_apply 1 cell _ (0 : Fin 1) j (1 : Fin 3) rfl,
    slice2_axis0_apply 2 cell _ (0 : Fin 1) j (2 : Fin 3) rfl,
    slice2_axis0_apply 0 shiftT _ (0 : Fin 1) n (0 : Fin 3) rfl, slice2_axis0_apply 1 shiftT _ (0 : Fin 1) n (1 : Fin 3) rfl,
    slice2_axis0_apply 2 shiftT _ (0 : Fin 1) n (2 : Fin 3) rfl]

/-! ## The staged array at an index -/

/-- For endpoint words in range, the staged array at (j, n) is component j of edge n's displacement. -/
theorem staged_read (pos : FVec Ideal S100000x3 .f32) (ends : IVec S2x3200000 32) (cell : FVec Ideal S1x3x3 .f32)
    (shift : FVec Ideal S3200000x3 .f32) (hin : Cert.SH.InRange ends) (j : Fin 3) (n : Fin 3200000) :
    staged pos ends cell shift (ix2 j n) = Cert.SH.disp pos ends cell shift n j := by
  have hsrc : ∀ k : Fin 3200000, column (srcWords ends) (ix2 k (0 : Fin 1)) = ends (ix2 (0 : Fin 2) k) := fun k => by
    rw [column_apply _ k (by rw [srcWords_apply]; exact Cert.SH.not_neg (hin 0 k).1 (hin 0 k).2), srcWords_apply]
  have hdst : ∀ k : Fin 3200000, column (dstWords ends) (ix2 k (0 : Fin 1)) = ends (ix2 (1 : Fin 2) k) := fun k => by
    rw [column_apply _ k (by rw [dstWords_apply]; exact Cert.SH.not_neg (hin 1 k).1 (hin 1 k).2), dstWords_apply]
  rw [Cert.SH.disp_eq]
  unfold staged
  rw [addf_apply, subf_apply,
    take_apply _ _ (fun k => by rw [hdst k]; exact ⟨(hin 1 k).1, Cert.SH.in_table (hin 1 k).1 (hin 1 k).2⟩) j n,
    take_apply _ _ (fun k => by rw [hsrc k]; exact ⟨(hin 0 k).1, Cert.SH.in_table (hin 0 k).1 (hin 0 k).2⟩) j n,
    hdst n, hsrc n, transpose_ix2_apply, transpose_ix2_apply, cellTerm_apply,
    shapeCast_1ab_ab_apply, shapeCast_1ab_ab_apply, shapeCast_1ab_ab_apply,
    transpose_ix2_apply, transpose_ix2_apply, transpose_ix2_apply]

/-! ## The host operations, stretch by stretch

Each stretch of host operations is read from ANY contents W of the buffers before it: what it leaves in the buffers the
later stretches read, and that it leaves the buffers it does not write as they were. -/

/-- A list cut in three. -/
theorem split3 {β : Type} (l : List β) (a b : Nat) : l = l.take a ++ ((l.drop a).take b ++ (l.drop a).drop b) := by
  rw [List.take_append_drop, List.take_append_drop]

section Stretches

variable {F : FTy → Type} [FloatOps F] [Named F] (W : Valuation τ sig (Elt F))

-- the fold over an axis and the gather are kept as named operations here: only their operands are compared
attribute [local irreducible] Host.reduce Host.gather

/-- The first stretch leaves the source words, the destination words and the transposed position table. -/
theorem stretch0_src : StableHlo.after (hostOps0 (F := F)) W (Proc.devRef (τ := τ) .tc main_v1) = srcWords (W (Proc.devRef (τ := τ) .tc main_arg1)) := by
  dsimp only [Gen.hostOps0]
  after_results
  rfl

theorem stretch0_dst : StableHlo.after (hostOps0 (F := F)) W (Proc.devRef (τ := τ) .tc main_v3) = dstWords (W (Proc.devRef (τ := τ) .tc main_arg1)) := by
  dsimp only [Gen.hostOps0]
  after_results
  rfl

theorem stretch0_table : StableHlo.after (hostOps0 (F := F)) W (Proc.devRef (τ := τ) .tc main_v4)
    = transpose S3x100000 [1, 0] (W (Proc.devRef (τ := τ) .tc main_arg0)) transposes_S100000x3_S3x100000_1_0 := by
  dsimp only [Gen.hostOps0]
  after_results

/-- It writes neither the cell nor the shifts. -/
theorem stretch0_keeps :
    StableHlo.after (hostOps0 (F := F)) W (Proc.devRef (τ := τ) .tc main_arg2) = W (Proc.devRef (τ := τ) .tc main_arg2)
    ∧ StableHlo.after (hostOps0 (F := F)) W (Proc.devRef (τ := τ) .tc main_arg3) = W (Proc.devRef (τ := τ) .tc main_arg3) := by
  dsimp only [Gen.hostOps0]
  exact ⟨by after_results, by after_results⟩

/-- The second stretch in three steps, each read from any contents W before it: the index column, -/
theorem take0_column : StableHlo.after (List.take 8 (hostOps0_1 (F := F))) W (Proc.devRef (τ := τ) .tc main_call0_v5) = column (W (Proc.devRef (τ := τ) .tc main_v1)) := by
  simp only [Gen.hostOps0_1, List.take_succ_cons, List.take_zero]
  after_results_simp
  rfl

theorem take0_column_keeps : StableHlo.after (List.take 8 (hostOps0_1 (F := F))) W (Proc.devRef (τ := τ) .tc main_v4) = W (Proc.devRef (τ := τ) .tc main_v4) := by
  simp only [Gen.hostOps0_1, List.take_succ_cons, List.take_zero]
  after_results_simp

/-- its range test, -/
theorem take0_mask : StableHlo.after (List.take 10 (List.drop 8 (hostOps0_1 (F := F)))) W (Proc.devRef (τ := τ) .tc main_call0_v12) = inTable (W (Proc.devRef (τ := τ) .tc main_call0_v5)) := by
  simp only [Gen.hostOps0_1, List.take_succ_cons, List.take_zero, List.drop_succ_cons, List.drop_zero]
  after_results_simp
  rfl

theorem take0_mask_keeps :
    StableHlo.after (List.take 10 (List.drop 8 (hostOps0_1 (F := F)))) W (Proc.devRef (τ := τ) .tc main_call0_v5) = W (Proc.devRef (τ := τ) .tc main_call0_v5)
    ∧ StableHlo.after (List.take 10 (List.drop 8 (hostOps0_1 (F := F)))) W (Proc.devRef (τ := τ) .tc main_v4) = W (Proc.devRef (τ := τ) .tc main_v4) := by
  simp only [Gen.hostOps0_1, List.take_succ_cons, List.take_zero, List.drop_succ_cons, List.drop_zero]
  exact ⟨by after_results_simp, by after_results_simp⟩

/-- and the gather under that mask. -/
theorem take0_gather : StableHlo.after (List.drop 10 (List.drop 8 (hostOps0_1 (F := F)))) W (Proc.devRef (τ := τ) .tc main_v5)
    = fillGather (W (Proc.devRef (τ := τ) .tc main_call0_v12)) (W (Proc.devRef (τ := τ) .tc main_v4)) (W (Proc.devRef (τ := τ) .tc main_call0_v5)) := by
  simp only [Gen.hostOps0_1, List.drop_succ_cons, List.drop_zero]
  after_results_simp
  rfl

/-- Together: the stretch leaves the filling gather of the table's columns at the source words. -/
theorem stretch1_take : StableHlo.after (hostOps0_1 (F := F)) W (Proc.devRef (τ := τ) .tc main_v5)
    = take (W (Proc.devRef (τ := τ) .tc main_v4)) (column (W (Proc.devRef (τ := τ) .tc main_v1))) := by
  refine (congrArg (fun l => StableHlo.after l W (Proc.devRef (τ := τ) .tc main_v5)) (split3 (hostOps0_1 (F := F)) 8 10)).trans ?_
  rw [StableHlo.after_append, StableHlo.after_append, take0_gather, take0_mask, (take0_mask_keeps _).1, (take0_mask_keeps _).2,
    take0_column, take0_column_keeps]
  rfl

/-- It writes none of the destination words, the table, the cell, the shifts. -/
theorem stretch1_keeps :
    StableHlo.after (hostOps0_1 (F := F)) W (Proc.devRef (τ := τ) .tc main_v3) = W (Proc.devRef (τ := τ) .tc main_v3)
    ∧ StableHlo.after (hostOps0_1 (F := F)) W (Proc.devRef (τ := τ) .tc main_v4) = W (Proc.devRef (τ := τ) .tc main_v4)
    ∧ StableHlo.after (hostOps0_1 (F := F)) W (Proc.devRef (τ := τ) .tc main_arg2) = W (Proc.devRef (τ := τ) .tc main_arg2)
    ∧ StableHlo.after (hostOps0_1 (F := F)) W (Proc.devRef (τ := τ) .tc main_arg3) = W (Proc.devRef (τ := τ) .tc main_arg3) := by
  dsimp only [Gen.hostOps0_1]
  exact ⟨by after_results_simp, by after_results_simp, by after_results_simp, by after_results_simp⟩

/-- The third stretch in three steps, each read from any contents W before it: the index column, -/
theorem take1_column : StableHlo.after (List.take 8 (hostOps0_2 (F := F))) W (Proc.devRef (τ := τ) .tc main_call1_v5) = column (W (Proc.devRef (τ := τ) .tc main_v3)) := by
  simp only [Gen.hostOps0_2, List.take_succ_cons, List.take_zero]
  after_results_simp
  rfl

theorem take1_column_keeps : StableHlo.after (List.take 8 (hostOps0_2 (F := F))) W (Proc.devRef (τ := τ) .tc main_v4) = W (Proc.devRef (τ := τ) .tc main_v4) := by
  simp only [Gen.hostOps0_2, List.take_succ_cons, List.take_zero]
  after_results_simp

/-- its range test, -/
theorem take1_mask : StableHlo.after (List.take 10 (List.drop 8 (hostOps0_2 (F := F)))) W (Proc.devRef (τ := τ) .tc main_call1_v12) = inTable (W (Proc.devRef (τ := τ) .tc main_call1_v5)) := by
  simp only [Gen.hostOps0_2, List.take_succ_cons, List.take_zero, List.drop_succ_cons, List.drop_zero]
  after_results_simp
  rfl

theorem take1_mask_keeps :
    StableHlo.after (List.take 10 (List.drop 8 (hostOps0_2 (F := F)))) W (Proc.devRef (τ := τ) .tc main_call1_v5) = W (Proc.devRef (τ := τ) .tc main_call1_v5)
    ∧ StableHlo.after (List.take 10 (List.drop 8 (hostOps0_2 (F := F)))) W (Proc.devRef (τ := τ) .tc main_v4) = W (Proc.devRef (τ := τ) .tc main_v4) := by
  simp only [Gen.hostOps0_2, List.take_succ_cons, List.take_zero, List.drop_succ_cons, List.drop_zero]
  exact ⟨by after_results_simp, by after_results_simp⟩

/-- and the gather under that mask. -/
theorem take1_gather : StableHlo.after (List.drop 10 (List.drop 8 (hostOps0_2 (F := F)))) W (Proc.devRef (τ := τ) .tc main_v6)
    = fillGather (W (Proc.devRef (τ := τ) .tc main_call1_v12)) (W (Proc.devRef (τ := τ) .tc main_v4)) (W (Proc.devRef (τ := τ) .tc main_call1_v5)) := by
  simp only [Gen.hostOps0_2, List.drop_succ_cons, List.drop_zero]
  after_results_simp
  rfl

/-- Together: the stretch leaves the filling gather of the table's columns at the destination words. -/
theorem stretch2_take : StableHlo.after (hostOps0_2 (F := F)) W (Proc.devRef (τ := τ) .tc main_v6)
    = take (W (Proc.devRef (τ := τ) .tc main_v4)) (column (W (Proc.devRef (τ := τ) .tc main_v3))) := by
  refine (congrArg (fun l => StableHlo.after l W (Proc.devRef (τ := τ) .tc main_v6)) (split3 (hostOps0_2 (F := F)) 8 10)).trans ?_
  rw [StableHlo.after_append, StableHlo.after_append, take1_gather, take1_mask, (take1_mask_keeps _).1, (take1_mask_keeps _).2,
    take1_column, take1_column_keeps]
  rfl

/-- It writes none of the source columns gathered before it, the cell, the shifts. -/
theorem stretch2_keeps :
    StableHlo.after (hostOps0_2 (F := F)) W (Proc.devRef (τ := τ) .tc main_v5) = W (Proc.devRef (τ := τ) .tc main_v5)
    ∧ StableHlo.after (hostOps0_2 (F := F)) W (Proc.devRef (τ := τ) .tc main_arg2) = W (Proc.devRef (τ := τ) .tc main_arg2)
    ∧ StableHlo.after (hostOps0_2 (F := F)) W (Proc.devRef (τ := τ) .tc main_arg3) = W (Proc.devRef (τ := τ) .tc main_arg3) := by
  dsimp only [Gen.hostOps0_2]
  exact ⟨by after_results_simp, by after_results_simp, by after_results_simp⟩

/-- The last stretch leaves the difference of the two gathers plus the cell term. -/
theorem stretch3_sum : StableHlo.after (hostOps0_3 (F := F)) W (Proc.devRef (τ := τ) .tc main_v30)
    = addf (subf (W (Proc.devRef (τ := τ) .tc main_v6)) (W (Proc.devRef (τ := τ) .tc main_v5)))
        (cellTerm (shapeCast S3x3 (W (Proc.devRef (τ := τ) .tc main_arg2)) shapeCasts_S1x3x3_S3x3)
          (transpose S3x3200000 [1, 0] (W (Proc.devRef (τ := τ) .tc main_arg3)) transposes_S3200000x3_S3x3200000_1_0)) := by
  dsimp only [Gen.hostOps0_3]
  after_results_simp
  rfl

end Stretches

/-! ## The host operations compose to the staged array -/

section Fold

variable {F : FTy → Type} [FloatOps F] [Named F]

/-- The array the host operations leave for the region is the staged array of the four argument arrays as launched:
    the four stretches in a row, each read from what the stretches before it left. -/
theorem V_eq_staged (μ : (ℓ : Loc nD τ sig) → Buf (Elt F) ℓ) (c : Dev nD) :
    (V (F := F) μ c main_v30 : S3x3200000.Idx → F .f32)
      = staged (μ ((c : Thread nD τ).loc main_arg0)) (μ ((c : Thread nD τ).loc main_arg1))
          (μ ((c : Thread nD τ).loc main_arg2)) (μ ((c : Thread nD τ).loc main_arg3)) := by
  dsimp only [Gen.V]
  simp only [List.flatten_cons, List.flatten_nil, List.append_nil]
  rw [StableHlo.after_append, StableHlo.after_append, StableHlo.after_append]
  rw [stretch3_sum, stretch2_take, (stretch2_keeps _).1, (stretch2_keeps _).2.1, (stretch2_keeps _).2.2,
    stretch1_take, (stretch1_keeps _).1, (stretch1_keeps _).2.1, (stretch1_keeps _).2.2.1, (stretch1_keeps _).2.2.2,
    stretch0_src, stretch0_dst, stretch0_table, (stretch0_keeps _).1, (stretch0_keeps _).2]
  rfl

end Fold

/-! ## The statement -/

/-- THE STAGED ARRAY at (j, n) is component j of edge n's displacement, for endpoint words in range. -/
theorem staged_apply (c : Dev nD) (hin : Cert.SH.InRange (m ((c : Thread nD τ).loc main_arg1))) (j : Fin 3) (n : Fin 3200000) :
    (V (F := Ideal) m c main_v30 : S3x3200000.Idx → EReal) (ix2 j n)
      = Cert.SH.disp (m ((c : Thread nD τ).loc main_arg0)) (m ((c : Thread nD τ).loc main_arg1))
          (m ((c : Thread nD τ).loc main_arg2)) (m ((c : Thread nD τ).loc main_arg3)) n j :=
  (congrFun (V_eq_staged (F := Ideal) m c) (ix2 j n)).trans
    (staged_read (m ((c : Thread nD τ).loc main_arg0)) (m ((c : Thread nD τ).loc main_arg1))
      (m ((c : Thread nD τ).loc main_arg2)) (m ((c : Thread nD τ).loc main_arg3)) hin j n)

end Cert.KernelIdeal.HostEdge

end
-- ==== Proof.KernelArray.lean ====
/-
  From blocks to the array. Grid point t stages columns 12800·t … 12800·t + 12799 of the [3, 3200000] displacement array
  and writes rows 12800·t … 12800·t + 12799 of the [3200000, 16] result; the 250 points' blocks tile the result. Entry
  (e, k) of the block point t writes is harmonic k of the scaled displacement of edge n = 12800·t + e, and the kernel's
  scaling is the reference's division (the clamp law), so the block is block t of the one function of the arguments.
-/
import proofs.«420859_j42193758716383_3_alg».proof.Proof.Gen.KernelIdeal.Value
import proofs.«420859_j42193758716383_3_alg».proof.Proof.Harmonics
import proofs.«420859_j42193758716383_3_alg».proof.Proof.ClampLaw
import proofs.«420859_j42193758716383_3_alg».proof.Proof.KernelPayload
import proofs.«420859_j42193758716383_3_alg».proof.Proof.KernelEdge
import Idealize.ShloMosaic.Lib.Pipeline.Value
import Idealize.ShloMosaic.PureOps.IdealRules

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The one function of the argument arrays the result array ends holding. -/
abbrev G (c : Dev nD) : S3200000x16.Idx → EReal :=
  Cert.SH.edgeHarmonics (m ((c : Thread nD τ).loc main_arg0)) (m ((c : Thread nD τ).loc main_arg1))
    (m ((c : Thread nD τ).loc main_arg2)) (m ((c : Thread nD τ).loc main_arg3))

/-- The squared clamp's name denotes D². -/
theorem epsSq_eq : Payload.epsSq = ((Cert.SH.clampD * Cert.SH.clampD : ℝ) : EReal) := by
  rw [← Cert.SH.clamp_sq]
  exact IdealRules.named_const.ideal_named_scalar _ _ _ _ rfl

/-- The printed index maps over the grid: the input window walks the columns, the output window the rows, block t at point t. -/
theorem idx_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

/-- Entry (j, e) of block t of ANY [3, 3200000] array, read through the input window, is the array's entry (j, 12800·t + e). -/
theorem read_block0 (A : S3x3200000.Idx → EReal) (t : Fin cfg0.N) (j : Fin 3) (e : Fin 12800) (n : Fin 3200000)
    (hn : n.val = t.val * 12800 + e.val) :
    (((cfg0.win 0).blk t).view.read (Elt Ideal) A : Vec Ideal S3x12800 .f32) (ix2 j e) = A (ix2 j n) := by
  obtain ⟨h0, h1, -, -⟩ := idx_facts t
  rw [View.read_apply]
  refine congrArg A (funext fun a => Fin.ext ?_)
  match a with
  | ⟨0, _⟩ => show win0_0.index t 0 * 3 + 1 * j.val = j.val; rw [h0]; omega
  | ⟨1, _⟩ => show win0_0.index t 1 * 12800 + 1 * e.val = n.val; rw [h1, hn]; omega

/-- So entry (j, e) of the block the input window stages at point t is entry (j, 12800·t + e) of the staged array. -/
theorem iblk_apply (c : Dev nD) (t : Fin cfg0.N) (j : Fin 3) (e : Fin 12800) (n : Fin 3200000) (hn : n.val = t.val * 12800 + e.val) :
    (iblk m c 0 t : Vec Ideal S3x12800 .f32) (ix2 j e) = (V (F := Ideal) m c main_v30 : S3x3200000.Idx → EReal) (ix2 j n) :=
  read_block0 (V (F := Ideal) m c main_v30 : S3x3200000.Idx → EReal) t j e n hn

/-- which is component j of edge n's displacement. -/
theorem iblk_disp (c : Dev nD) (hin : Cert.SH.InRange (m ((c : Thread nD τ).loc main_arg1))) (t : Fin cfg0.N) (e : Fin 12800)
    (n : Fin 3200000) (hn : n.val = t.val * 12800 + e.val) (j : Fin 3) :
    (iblk m c 0 t : Vec Ideal S3x12800 .f32) (ix2 j e)
      = Cert.SH.disp (m ((c : Thread nD τ).loc main_arg0)) (m ((c : Thread nD τ).loc main_arg1))
          (m ((c : Thread nD τ).loc main_arg2)) (m ((c : Thread nD τ).loc main_arg3)) n j :=
  (iblk_apply m c t j e n hn).trans (HostEdge.staged_apply m c hin j n)

/-- The kernel's scaled component of edge n = 12800·t + e is the direction's component: the clamp law. -/
theorem scaled_eq (c : Dev nD) (hin : Cert.SH.InRange (m ((c : Thread nD τ).loc main_arg1))) (t : Fin cfg0.N) (e : Fin 12800)
    (n : Fin 3200000) (hn : n.val = t.val * 12800 + e.val) (j : Fin 3) :
    Payload.scaled (iblk m c 0 t : Vec Ideal S3x12800 .f32) e j
      = Cert.SH.dir (m ((c : Thread nD τ).loc main_arg0)) (m ((c : Thread nD τ).loc main_arg1))
          (m ((c : Thread nD τ).loc main_arg2)) (m ((c : Thread nD τ).loc main_arg3)) n j := by
  unfold Payload.scaled Cert.SH.dir
  rw [iblk_disp m c hin t e n hn j, iblk_disp m c hin t e n hn 0, iblk_disp m c hin t e n hn 1, iblk_disp m c hin t e n hn 2]
  exact Cert.SH.normalize_eq _ _ _ epsSq_eq

/-! ## What a point writes back -/

/-- Entry (e, k) of block t of the result array is the array's entry (12800·t + e, k). -/
theorem emb_block1 (t : Fin cfg0.N) (e : Fin 12800) (k : Fin 16) (n : Fin 3200000) (hn : n.val = t.val * 12800 + e.val) :
    ((cfg0.win 1).blk t).view.emb (ix2 e k : S12800x16.Idx) = (ix2 n k : S3200000x16.Idx) := by
  obtain ⟨-, -, h0, h1⟩ := idx_facts t
  funext a
  apply Fin.ext
  match a with
  | ⟨0, _⟩ => show win0_1.index t 0 * 12800 + 1 * e.val = n.val; rw [h0, hn]; omega
  | ⟨1, _⟩ => show win0_1.index t 1 * 16 + 1 * k.val = k.val; rw [h1]; omega

/-- WHAT POINT t WRITES BACK is block t of the one function G of the arguments. -/
theorem flushed_eq (c : Dev nD) (hin : Cert.SH.InRange (m ((c : Thread nD τ).loc main_arg1))) (t : Fin cfg0.N) :
    (dats m 0 c).flushed 1 t = ((cfg0.win 1).blk t).view.read (Elt Ideal) (G m c) := by
  rw [Value.flushed1]
  funext y
  obtain ⟨e, k, rfl⟩ : ∃ (e : Fin 12800) (k : Fin 16), y = ix2 e k := ⟨y 0, y 1, eq_ix2 y⟩
  have ht : t.val < 250 := Nat.lt_of_lt_of_eq t.isLt N_0
  have he := e.isLt
  let n : Fin 3200000 := ⟨t.val * 12800 + e.val, by omega⟩
  show out0_1 (F := Ideal) (iblk m c 0 t) (ix2 e k) = G m c (((cfg0.win 1).blk t).view.emb (ix2 e k))
  rw [emb_block1 t e k n rfl]
  refine (Payload.out_apply (iblk m c 0 t : Vec Ideal S3x12800 .f32) e k).trans ?_
  rw [scaled_eq m c hin t e n rfl 0, scaled_eq m c hin t e n rfl 1, scaled_eq m c hin t e n rfl 2]
  rfl

/-! ## The blocks tile the array -/

/-- An index of the result array is in point t's block iff each coordinate is in the block's range on its axis. -/
theorem mem_blk (t : Fin cfg0.N) (i : S3200000x16.Idx) :
    i ∈ ((cfg0.win 1).blk t).view.set ↔ ∀ a : Fin 2, win0_1.index t a * S12800x16.size a ≤ (i a).val
      ∧ (i a).val < win0_1.index t a * S12800x16.size a + S12800x16.size a := by
  show i ∈ ((View.whole main_v31).slice (win0_1.rect t)).set ↔ _
  rw [View.set_slice_whole, Rect.mem_set_unit]
  exact Iff.rfl

/-- Row r of the result lies in the block of point r / 12800. -/
theorem cover (i : S3200000x16.Idx) : ∃ t : Fin cfg0.N, (cfg0.win 1).flush t = true ∧ i ∈ ((cfg0.win 1).blk t).view.set := by
  have hi0 : (i 0).val < 3200000 := idx2_lt0 i
  have hi1 : (i 1).val < 16 := idx2_lt1 i
  let t : Fin cfg0.N := ⟨(i 0).val / 12800, by rw [show cfg0.N = 250 from N_0]; omega⟩
  obtain ⟨-, -, h0, h1⟩ := idx_facts t
  refine ⟨t, flush0_1 t, ?_⟩
  rw [mem_blk]
  intro a
  match a with
  | ⟨0, _⟩ =>
    show win0_1.index t 0 * 12800 ≤ (i 0).val ∧ (i 0).val < win0_1.index t 0 * 12800 + 12800
    rw [h0]; show (i 0).val / 12800 * 12800 ≤ (i 0).val ∧ (i 0).val < (i 0).val / 12800 * 12800 + 12800; omega
  | ⟨1, _⟩ =>
    show win0_1.index t 1 * 16 ≤ (i 1).val ∧ (i 1).val < win0_1.index t 1 * 16 + 16
    rw [h1]; omega

/-- THE ARRAY after the run is G of the arguments. -/
theorem final (c : Dev nD) (hin : Cert.SH.InRange (m ((c : Thread nD τ).loc main_arg1))) :
    (dats m 0 c).arrAt 1 cfg0.N = G m c :=
  (dats m 0 c).arrAt_eq_of_cover 1 (G m c) (fun t _ => flushed_eq m c hin t) cover

/-- THE RUN, read: the kernel's result array ends at G of the arguments, the arguments unchanged. -/
theorem run (hin : ∀ c : Dev nD, Cert.SH.InRange (m ((c : Thread nD τ).loc main_arg1))) :
    θ_run defs (onTc (τ := τ) (main (F := Ideal))) ⟨m, fun _ => 0, ρ⟩ fun r => ∀ c : Dev nD,
      r.2.mem ((c : Thread nD τ).loc main_v31) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hin c)), (h c).2⟩) (Value.run_blocks m ρ)

end Cert.KernelIdeal.Array

end
-- ==== Proof.RefEdge.lean ====
/-
  The reference's displacement and direction, read at an index: row n of the gathered positions is the endpoint's
  position (the gather's clamp leaves an in-range word alone), the cell term is the three-term contraction, the norm is
  the root of the sum of squares, and the direction is the quotient by the clamped norm.
-/
import proofs.«420859_j42193758716383_3_alg».proof.Proof.Gen.ReferenceIdeal.Read
import proofs.«420859_j42193758716383_3_alg».proof.Proof.Harmonics
import proofs.«420859_j42193758716383_3_alg».proof.Proof.EndWords
import proofs.«420859_j42193758716383_3_alg».proof.Proof.LibGatherTable

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx
open scoped BigOperators

/-! ## The endpoint words -/

/-- Row 1 of the index array, flattened: entry n is the word at (1, n). -/
theorem dstWord_apply (x1 : IVec S2x3200000 32) (n : Fin 3200000) :
    val_main_v3 (F := Ideal) x1 (ix1 n) = x1 (ix2 (1 : Fin 2) n) := by
  rw [val_main_v3_apply, val_main_v2_apply]
  refine congrArg x1 (funext fun a => Fin.ext ?_)
  match a with
  | ⟨0, _⟩ => rfl
  | ⟨1, _⟩ => exact Nat.mod_eq_of_lt n.isLt

/-- Row 0 of the index array, flattened: entry n is the word at (0, n). -/
theorem srcWord_apply (x1 : IVec S2x3200000 32) (n : Fin 3200000) :
    val_main_v1 (F := Ideal) x1 (ix1 n) = x1 (ix2 (0 : Fin 2) n) := by
  rw [val_main_v1_apply, val_main_v0_apply]
  refine congrArg x1 (funext fun a => Fin.ext ?_)
  match a with
  | ⟨0, _⟩ => rfl
  | ⟨1, _⟩ => exact Nat.mod_eq_of_lt n.isLt

/-- A word in range is not negative, so the wrap-around of a negative index keeps it: the wrapped row 1 is row 1. -/
theorem dstWrapped_apply (x1 : IVec S2x3200000 32) (hin : Cert.SH.InRange x1) (n : Fin 3200000) :
    val_main_v8 (F := Ideal) x1 (ix1 n) = x1 (ix2 (1 : Fin 2) n) := by
  rw [val_main_v8_apply, val_main_v5_apply, val_main_v4_apply, val_main_c_apply, dstWord_apply,
    Cert.SH.not_neg (hin 1 n).1 (hin 1 n).2, ValueIdx.select_zero]

/-- The wrapped row 0 is row 0. -/
theorem srcWrapped_apply (x1 : IVec S2x3200000 32) (hin : Cert.SH.InRange x1) (n : Fin 3200000) :
    val_main_v15 (F := Ideal) x1 (ix1 n) = x1 (ix2 (0 : Fin 2) n) := by
  rw [val_main_v15_apply, val_main_v12_apply, val_main_v11_apply, val_main_c_1_apply, srcWord_apply,
    Cert.SH.not_neg (hin 0 n).1 (hin 0 n).2, ValueIdx.select_zero]

/-- The column of wrapped row-1 words: entry (n, 0) is the word at (1, n). -/
theorem dstColumn_apply (x1 : IVec S2x3200000 32) (hin : Cert.SH.InRange x1) (n : Fin 3200000) :
    val_main_v9 (F := Ideal) x1 (ix2 n (0 : Fin 1)) = x1 (ix2 (1 : Fin 2) n) := by
  rw [val_main_v9_apply, ← dstWrapped_apply x1 hin n]
  refine congrArg (val_main_v8 (F := Ideal) x1) (funext fun a => Fin.ext ?_)
  match a with
  | ⟨0, _⟩ => rfl

/-- The column of wrapped row-0 words: entry (n, 0) is the word at (0, n). -/
theorem srcColumn_apply (x1 : IVec S2x3200000 32) (hin : Cert.SH.InRange x1) (n : Fin 3200000) :
    val_main_v16 (F := Ideal) x1 (ix2 n (0 : Fin 1)) = x1 (ix2 (0 : Fin 2) n) := by
  rw [val_main_v16_apply, ← srcWrapped_apply x1 hin n]
  refine congrArg (val_main_v15 (F := Ideal) x1) (funext fun a => Fin.ext ?_)
  match a with
  | ⟨0, _⟩ => rfl

/-! ## The gathered positions -/

/-- The clamped start index of a row gather from the table of 100000 nodes is the node the word names. -/
theorem clamp_eq_node (w : BitVec 32) (h : min w.toInt.toNat (100000 - 1) < 100000) :
    (⟨min w.toInt.toNat (100000 - 1), h⟩ : Fin 100000) = Cert.SH.node w := Fin.ext rfl

/-- Row n of the first gather is the position of edge n's row-1 endpoint. -/
theorem dstPos_apply (x0 : FVec Ideal S100000x3 .f32) (x1 : IVec S2x3200000 32) (hin : Cert.SH.InRange x1)
    (n : Fin 3200000) (j : Fin 3) :
    val_main_v10 (F := Ideal) x0 x1 (ix2 n j) = x0 (ix2 (Cert.SH.node (x1 (ix2 (1 : Fin 2) n))) j) := by
  unfold val_main_v10
  refine (GatherTable.gather_rows_apply (N := 100000) (C := 3) (R := 3200000)
    gather_S100000x3_S3200000x1_S3200000x3_1_0_n_n_0_1_13 rfl rfl rfl rfl rfl x0
    (val_main_v9 (F := Ideal) x1) n j (by decide)).trans ?_
  rw [clamp_eq_node, dstColumn_apply x1 hin n]

/-- Row n of the second gather is the position of edge n's row-0 endpoint. -/
theorem srcPos_apply (x0 : FVec Ideal S100000x3 .f32) (x1 : IVec S2x3200000 32) (hin : Cert.SH.InRange x1)
    (n : Fin 3200000) (j : Fin 3) :
    val_main_v17 (F := Ideal) x0 x1 (ix2 n j) = x0 (ix2 (Cert.SH.node (x1 (ix2 (0 : Fin 2) n))) j) := by
  unfold val_main_v17
  refine (GatherTable.gather_rows_apply (N := 100000) (C := 3) (R := 3200000)
    gather_S100000x3_S3200000x1_S3200000x3_1_0_n_n_0_1_13 rfl rfl rfl rfl rfl x0
    (val_main_v16 (F := Ideal) x1) n j (by decide)).trans ?_
  rw [clamp_eq_node, srcColumn_apply x1 hin n]

/-! ## The cell term -/

/-- The cell matrix without its leading unit axis: entry (k, j) is the cell's (0, k, j). -/
theorem cell_apply (x2 : FVec Ideal S1x3x3 .f32) (k j : Fin 3) :
    val_main_v19 (F := Ideal) x2 (ix2 k j) = x2 (ix3 (0 : Fin 1) k j) := by
  rw [val_main_v19_apply]
  refine congrArg x2 (funext fun a => Fin.ext ?_)
  have hk := k.isLt
  have hj := j.isLt
  match a with
  | ⟨0, _⟩ => rfl
  | ⟨1, _⟩ => show (k.val * 3 + j.val) / 3 % 3 = k.val; omega
  | ⟨2, _⟩ => show (k.val * 3 + j.val) % 3 = j.val; omega

/-- The contraction of the shift's row n with the cell's column j. -/
theorem cellTerm_apply (x2 : FVec Ideal S1x3x3 .f32) (x3 : FVec Ideal S3200000x3 .f32) (n : Fin 3200000) (j : Fin 3) :
    val_main_v20 (F := Ideal) x2 x3 (ix2 n j) = ∑ k : Fin 3, x3 (ix2 n k) * x2 (ix3 (0 : Fin 1) k j) := by
  rw [val_main_v20_apply]
  refine Finset.sum_congr rfl fun k _ => ?_
  have el : lidx_main_v20 (ix2 n j) k = ix2 n k := funext fun a => Fin.ext (by
    match a with
    | ⟨0, _⟩ => rfl
    | ⟨1, _⟩ => rfl)
  have er : ridx_main_v20 (ix2 n j) k = ix2 k j := funext fun a => Fin.ext (by
    match a with
    | ⟨0, _⟩ => rfl
    | ⟨1, _⟩ => rfl)
  rw [el, er, cell_apply]

/-! ## The displacement -/

/-- The reference's displacement array at (n, j). -/
theorem disp_apply (x0 : FVec Ideal S100000x3 .f32) (x1 : IVec S2x3200000 32) (x2 : FVec Ideal S1x3x3 .f32) (x3 : FVec Ideal S3200000x3 .f32)
    (hin : Cert.SH.InRange x1) (n : Fin 3200000) (j : Fin 3) :
    val_main_v21 (F := Ideal) x0 x1 x2 x3 (ix2 n j) = Cert.SH.disp x0 x1 x2 x3 n j := by
  rw [val_main_v21_apply, val_main_v18_apply, dstPos_apply x0 x1 hin, srcPos_apply x0 x1 hin, cellTerm_apply]
  rfl

/-! ## The clamped norm and the direction -/

/-- The sum of squares of row n of the displacement, on top of the zero word. -/
theorem sumSq_apply (x0 : FVec Ideal S100000x3 .f32) (x1 : IVec S2x3200000 32) (x2 : FVec Ideal S1x3x3 .f32) (x3 : FVec Ideal S3200000x3 .f32)
    (hin : Cert.SH.InRange x1) (n : Fin 3200000) :
    val_main_call0_v1 (F := Ideal) x0 x1 x2 x3 (ix1 n)
      = Cert.SH.lit 0x00000000#32 + ∑ k : Fin 3, Cert.SH.disp x0 x1 x2 x3 n k * Cert.SH.disp x0 x1 x2 x3 n k := by
  rw [val_main_call0_v1_apply, val_main_call0_cst_apply]
  refine congrArg (_ + ·) (Finset.sum_congr rfl fun k _ => ?_)
  have e : idx_main_call0_v1 (ix1 n) k = ix2 n k := funext fun a => Fin.ext (by
    match a with
    | ⟨0, _⟩ => rfl
    | ⟨1, _⟩ => rfl)
  rw [e, val_main_call0_v0_apply, disp_apply x0 x1 x2 x3 hin]
  rfl

/-- The length the reference divides row n by. -/
theorem norm_apply (x0 : FVec Ideal S100000x3 .f32) (x1 : IVec S2x3200000 32) (x2 : FVec Ideal S1x3x3 .f32) (x3 : FVec Ideal S3200000x3 .f32)
    (hin : Cert.SH.InRange x1) (n : Fin 3200000) :
    val_main_v24 (F := Ideal) x0 x1 x2 x3 (ix2 n (0 : Fin 1)) = Cert.SH.clampedNorm (Cert.SH.disp x0 x1 x2 x3 n) := by
  have e : idx_main_call0_v2 (ix2 n (0 : Fin 1)) = ix1 n := funext fun a => Fin.ext (by
    match a with
    | ⟨0, _⟩ => rfl)
  rw [val_main_v24_apply, val_main_v22_apply, val_main_call0_v2_apply, e, sumSq_apply x0 x1 x2 x3 hin,
    val_main_v23_apply, val_main_cst_apply]
  rfl

/-- The reference's direction array at (n, j). -/
theorem dir_apply (x0 : FVec Ideal S100000x3 .f32) (x1 : IVec S2x3200000 32) (x2 : FVec Ideal S1x3x3 .f32) (x3 : FVec Ideal S3200000x3 .f32)
    (hin : Cert.SH.InRange x1) (n : Fin 3200000) (j : Fin 3) :
    val_main_v26 (F := Ideal) x0 x1 x2 x3 (ix2 n j) = Cert.SH.dir x0 x1 x2 x3 n j := by
  have e : idx_main_v25 (ix2 n j) = ix2 n (0 : Fin 1) := funext fun a => Fin.ext (by
    match a with
    | ⟨0, _⟩ => rfl
    | ⟨1, _⟩ => rfl)
  rw [val_main_v26_apply, val_main_v25_apply, e, disp_apply x0 x1 x2 x3 hin, norm_apply x0 x1 x2 x3 hin]
  rfl

end Cert.ReferenceIdeal.RefValue

end
-- ==== Proof.RefChain.lean ====
/-
  The reference's result read at (n, k): column k of the joined columns, each the harmonic of that number of the three
  components of edge n's direction array.
-/
import proofs.«420859_j42193758716383_3_alg».proof.Proof.Gen.ReferenceIdeal.Read
import proofs.«420859_j42193758716383_3_alg».proof.Proof.Harmonics

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

open Cert.SH (lit offAxis deg2 deg3 harm)

section
variable (x0 : FVec Ideal S100000x3 .f32) (x1 : IVec S2x3200000 32) (x2 : FVec Ideal S1x3x3 .f32) (x3 : FVec Ideal S3200000x3 .f32)

/- U is the direction array, one row (x, y, z) per edge; X, Y, Z are its three columns, each flattened to a vector. -/
local notation "U" => val_main_v26 (F := Ideal) x0 x1 x2 x3
local notation "X" => val_main_v28 (F := Ideal) x0 x1 x2 x3
local notation "Y" => val_main_v30 (F := Ideal) x0 x1 x2 x3
local notation "Z" => val_main_v32 (F := Ideal) x0 x1 x2 x3

/-! ## The three components of a direction, as flat columns -/

/-- X at n is the direction array's entry (n, 0). -/
theorem x_apply (n : Fin 3200000) : X (ix1 n) = U (ix2 n 0) := by
  rw [val_main_v28_apply, val_main_v27_apply]
  refine congrArg _ (funext fun a => Fin.ext ?_)
  match a with
  | ⟨0, _⟩ => exact Nat.div_one _
  | ⟨1, _⟩ => rfl

/-- Y at n is the direction array's entry (n, 1). -/
theorem y_apply (n : Fin 3200000) : Y (ix1 n) = U (ix2 n 1) := by
  rw [val_main_v30_apply, val_main_v29_apply]
  refine congrArg _ (funext fun a => Fin.ext ?_)
  match a with
  | ⟨0, _⟩ => exact Nat.div_one _
  | ⟨1, _⟩ => rfl

/-- Z at n is the direction array's entry (n, 2). -/
theorem z_apply (n : Fin 3200000) : Z (ix1 n) = U (ix2 n 2) := by
  rw [val_main_v32_apply, val_main_v31_apply]
  refine congrArg _ (funext fun a => Fin.ext ?_)
  match a with
  | ⟨0, _⟩ => exact Nat.div_one _
  | ⟨1, _⟩ => rfl

/-! ## Degree two: the products the reference forms, entry by entry -/

/-- x² + z². -/
theorem off_apply (i : S3200000.Idx) : val_main_v36 (F := Ideal) x0 x1 x2 x3 i = offAxis (X i) (Z i) := by
  rw [val_main_v36_apply, val_main_v33_apply, val_main_v35_apply]; rfl

/-- (√3·x)·z. -/
theorem d0 (i : S3200000.Idx) : val_main_v40 (F := Ideal) x0 x1 x2 x3 i = deg2 (X i) (Y i) (Z i) 0 := by
  rw [val_main_v40_apply, val_main_v39_apply, val_main_v38_apply, val_main_cst_4_apply]; rfl

/-- (√3·x)·y. -/
theorem d1 (i : S3200000.Idx) : val_main_v43 (F := Ideal) x0 x1 x2 x3 i = deg2 (X i) (Y i) (Z i) 1 := by
  rw [val_main_v43_apply, val_main_v42_apply, val_main_v41_apply, val_main_cst_5_apply]; rfl

/-- y² - (x² + z²)/2. -/
theorem d2 (i : S3200000.Idx) : val_main_v46 (F := Ideal) x0 x1 x2 x3 i = deg2 (X i) (Y i) (Z i) 2 := by
  rw [val_main_v46_apply, val_main_v34_apply, val_main_v45_apply, val_main_v44_apply, val_main_cst_6_apply, off_apply]; rfl

/-- (√3·y)·z. -/
theorem d3 (i : S3200000.Idx) : val_main_v49 (F := Ideal) x0 x1 x2 x3 i = deg2 (X i) (Y i) (Z i) 3 := by
  rw [val_main_v49_apply, val_main_v48_apply, val_main_v47_apply, val_main_cst_7_apply]; rfl

/-- (√3/2)·(z² - x²). -/
theorem d4 (i : S3200000.Idx) : val_main_v52 (F := Ideal) x0 x1 x2 x3 i = deg2 (X i) (Y i) (Z i) 4 := by
  rw [val_main_v52_apply, val_main_v51_apply, val_main_cst_8_apply, val_main_v50_apply, val_main_v35_apply, val_main_v33_apply]; rfl

/-! ## Degree three: the recursion from degree two, in the reference's order of operations -/

theorem t0 (i : S3200000.Idx) : val_main_v57 (F := Ideal) x0 x1 x2 x3 i = deg3 (X i) (Y i) (Z i) 0 := by
  rw [val_main_v57_apply, val_main_v56_apply, val_main_cst_9_apply, val_main_v55_apply, val_main_v53_apply, val_main_v54_apply, d0, d4]; rfl

theorem t1 (i : S3200000.Idx) : val_main_v60 (F := Ideal) x0 x1 x2 x3 i = deg3 (X i) (Y i) (Z i) 1 := by
  rw [val_main_v60_apply, val_main_v59_apply, val_main_v58_apply, val_main_cst_10_apply, d0]; rfl

theorem t2 (i : S3200000.Idx) : val_main_v66 (F := Ideal) x0 x1 x2 x3 i = deg3 (X i) (Y i) (Z i) 2 := by
  rw [val_main_v66_apply, val_main_v65_apply, val_main_v64_apply, val_main_cst_12_apply, val_main_v63_apply, val_main_v62_apply,
    val_main_v61_apply, val_main_cst_11_apply, val_main_v34_apply, off_apply]; rfl

theorem t3 (i : S3200000.Idx) : val_main_v74 (F := Ideal) x0 x1 x2 x3 i = deg3 (X i) (Y i) (Z i) 3 := by
  rw [val_main_v74_apply, val_main_v68_apply, val_main_v67_apply, val_main_cst_13_apply, val_main_v73_apply, val_main_v70_apply,
    val_main_v69_apply, val_main_cst_14_apply, val_main_v34_apply, val_main_v72_apply, val_main_v71_apply, val_main_cst_15_apply,
    off_apply]; rfl

theorem t4 (i : S3200000.Idx) : val_main_v80 (F := Ideal) x0 x1 x2 x3 i = deg3 (X i) (Y i) (Z i) 4 := by
  rw [val_main_v80_apply, val_main_v76_apply, val_main_v75_apply, val_main_cst_16_apply, val_main_v79_apply, val_main_v78_apply,
    val_main_v77_apply, val_main_cst_17_apply, val_main_v34_apply, off_apply]; rfl

theorem t5 (i : S3200000.Idx) : val_main_v83 (F := Ideal) x0 x1 x2 x3 i = deg3 (X i) (Y i) (Z i) 5 := by
  rw [val_main_v83_apply, val_main_v82_apply, val_main_v81_apply, val_main_cst_18_apply, d4]; rfl

theorem t6 (i : S3200000.Idx) : val_main_v88 (F := Ideal) x0 x1 x2 x3 i = deg3 (X i) (Y i) (Z i) 6 := by
  rw [val_main_v88_apply, val_main_v87_apply, val_main_cst_19_apply, val_main_v86_apply, val_main_v84_apply, val_main_v85_apply, d4, d0]; rfl

/-! ## The sixteen harmonics by name

The harmonics of a direction are a table of sixteen entries; these say what each entry is, for any direction. -/

theorem harm_0 (x y z : EReal) : harm x y z 0 = lit 0x3F800000#32 := rfl
theorem harm_1 (x y z : EReal) : harm x y z 1 = lit 0x3FDDB3D7#32 * x := rfl
theorem harm_2 (x y z : EReal) : harm x y z 2 = lit 0x3FDDB3D7#32 * y := rfl
theorem harm_3 (x y z : EReal) : harm x y z 3 = lit 0x3FDDB3D7#32 * z := rfl
theorem harm_4 (x y z : EReal) : harm x y z 4 = lit 0x400F1BBD#32 * deg2 x y z 0 := rfl
theorem harm_5 (x y z : EReal) : harm x y z 5 = lit 0x400F1BBD#32 * deg2 x y z 1 := rfl
theorem harm_6 (x y z : EReal) : harm x y z 6 = lit 0x400F1BBD#32 * deg2 x y z 2 := rfl
theorem harm_7 (x y z : EReal) : harm x y z 7 = lit 0x400F1BBD#32 * deg2 x y z 3 := rfl
theorem harm_8 (x y z : EReal) : harm x y z 8 = lit 0x400F1BBD#32 * deg2 x y z 4 := rfl
theorem harm_9 (x y z : EReal) : harm x y z 9 = lit 0x402953FD#32 * deg3 x y z 0 := rfl
theorem harm_10 (x y z : EReal) : harm x y z 10 = lit 0x402953FD#32 * deg3 x y z 1 := rfl
theorem harm_11 (x y z : EReal) : harm x y z 11 = lit 0x402953FD#32 * deg3 x y z 2 := rfl
theorem harm_12 (x y z : EReal) : harm x y z 12 = lit 0x402953FD#32 * deg3 x y z 3 := rfl
theorem harm_13 (x y z : EReal) : harm x y z 13 = lit 0x402953FD#32 * deg3 x y z 4 := rfl
theorem harm_14 (x y z : EReal) : harm x y z 14 = lit 0x402953FD#32 * deg3 x y z 5 := rfl
theorem harm_15 (x y z : EReal) : harm x y z 15 = lit 0x402953FD#32 * deg3 x y z 6 := rfl

/-! ## The sixteen scaled vectors: harmonic k of (X, Y, Z), entry by entry -/

theorem h0 (i : S3200000.Idx) : val_main_v37 (F := Ideal) i = harm (X i) (Y i) (Z i) 0 := by
  rw [val_main_v37_apply, val_main_cst_3_apply, harm_0]; rfl

theorem h1 (i : S3200000.Idx) : val_main_v90 (F := Ideal) x0 x1 x2 x3 i = harm (X i) (Y i) (Z i) 1 := by
  rw [val_main_v90_apply, val_main_v89_apply, val_main_cst_20_apply, harm_1]; rfl

theorem h2 (i : S3200000.Idx) : val_main_v92 (F := Ideal) x0 x1 x2 x3 i = harm (X i) (Y i) (Z i) 2 := by
  rw [val_main_v92_apply, val_main_v91_apply, val_main_cst_21_apply, harm_2]; rfl

theorem h3 (i : S3200000.Idx) : val_main_v94 (F := Ideal) x0 x1 x2 x3 i = harm (X i) (Y i) (Z i) 3 := by
  rw [val_main_v94_apply, val_main_v93_apply, val_main_cst_22_apply, harm_3]; rfl

theorem h4 (i : S3200000.Idx) : val_main_v96 (F := Ideal) x0 x1 x2 x3 i = harm (X i) (Y i) (Z i) 4 := by
  rw [val_main_v96_apply, val_main_v95_apply, val_main_cst_23_apply, d0, harm_4]; rfl

theorem h5 (i : S3200000.Idx) : val_main_v98 (F := Ideal) x0 x1 x2 x3 i = harm (X i) (Y i) (Z i) 5 := by
  rw [val_main_v98_apply, val_main_v97_apply, val_main_cst_24_apply, d1, harm_5]; rfl

theorem h6 (i : S3200000.Idx) : val_main_v100 (F := Ideal) x0 x1 x2 x3 i = harm (X i) (Y i) (Z i) 6 := by
  rw [val_main_v100_apply, val_main_v99_apply, val_main_cst_25_apply, d2, harm_6]; rfl

theorem h7 (i : S3200000.Idx) : val_main_v102 (F := Ideal) x0 x1 x2 x3 i = harm (X i) (Y i) (Z i) 7 := by
  rw [val_main_v102_apply, val_main_v101_apply, val_main_cst_26_apply, d3, harm_7]; rfl

theorem h8 (i : S3200000.Idx) : val_main_v104 (F := Ideal) x0 x1 x2 x3 i = harm (X i) (Y i) (Z i) 8 := by
  rw [val_main_v104_apply, val_main_v103_apply, val_main_cst_27_apply, d4, harm_8]; rfl

theorem h9 (i : S3200000.Idx) : val_main_v106 (F := Ideal) x0 x1 x2 x3 i = harm (X i) (Y i) (Z i) 9 := by
  rw [val_main_v106_apply, val_main_v105_apply, val_main_cst_28_apply, t0, harm_9]; rfl

theorem h10 (i : S3200000.Idx) : val_main_v108 (F := Ideal) x0 x1 x2 x3 i = harm (X i) (Y i) (Z i) 10 := by
  rw [val_main_v108_apply, val_main_v107_apply, val_main_cst_29_apply, t1, harm_10]; rfl

theorem h11 (i : S3200000.Idx) : val_main_v110 (F := Ideal) x0 x1 x2 x3 i = harm (X i) (Y i) (Z i) 11 := by
  rw [val_main_v110_apply, val_main_v109_apply, val_main_cst_30_apply, t2, harm_11]; rfl

theorem h12 (i : S3200000.Idx) : val_main_v112 (F := Ideal) x0 x1 x2 x3 i = harm (X i) (Y i) (Z i) 12 := by
  rw [val_main_v112_apply, val_main_v111_apply, val_main_cst_31_apply, t3, harm_12]; rfl

theorem h13 (i : S3200000.Idx) : val_main_v114 (F := Ideal) x0 x1 x2 x3 i = harm (X i) (Y i) (Z i) 13 := by
  rw [val_main_v114_apply, val_main_v113_apply, val_main_cst_32_apply, t4, harm_13]; rfl

theorem h14 (i : S3200000.Idx) : val_main_v116 (F := Ideal) x0 x1 x2 x3 i = harm (X i) (Y i) (Z i) 14 := by
  rw [val_main_v116_apply, val_main_v115_apply, val_main_cst_33_apply, t5, harm_14]; rfl

theorem h15 (i : S3200000.Idx) : val_main_v118 (F := Ideal) x0 x1 x2 x3 i = harm (X i) (Y i) (Z i) 15 := by
  rw [val_main_v118_apply, val_main_v117_apply, val_main_cst_34_apply, t6, harm_15]; rfl

/-! ## The sixteen columns: column k at (n, 0) is harmonic k of row n of the direction array -/

/- Each column is one of the sixteen vectors set upright: its entry (n, 0) is the vector's entry n. -/

theorem col0 (n : Fin 3200000) :
    val_main_v119 (F := Ideal) (ix2 n 0) = harm (U (ix2 n 0)) (U (ix2 n 1)) (U (ix2 n 2)) 0 := by
  rw [val_main_v119_apply, show idx_main_v119 (ix2 n (0 : Fin 1)) = ix1 n from funext fun a => match a with | ⟨0, _⟩ => rfl,
    h0 x0 x1 x2 x3, x_apply, y_apply, z_apply]

theorem col1 (n : Fin 3200000) :
    val_main_v120 (F := Ideal) x0 x1 x2 x3 (ix2 n 0) = harm (U (ix2 n 0)) (U (ix2 n 1)) (U (ix2 n 2)) 1 := by
  rw [val_main_v120_apply, show idx_main_v120 (ix2 n (0 : Fin 1)) = ix1 n from funext fun a => match a with | ⟨0, _⟩ => rfl,
    h1, x_apply, y_apply, z_apply]

theorem col2 (n : Fin 3200000) :
    val_main_v121 (F := Ideal) x0 x1 x2 x3 (ix2 n 0) = harm (U (ix2 n 0)) (U (ix2 n 1)) (U (ix2 n 2)) 2 := by
  rw [val_main_v121_apply, show idx_main_v121 (ix2 n (0 : Fin 1)) = ix1 n from funext fun a => match a with | ⟨0, _⟩ => rfl,
    h2, x_apply, y_apply, z_apply]

theorem col3 (n : Fin 3200000) :
    val_main_v122 (F := Ideal) x0 x1 x2 x3 (ix2 n 0) = harm (U (ix2 n 0)) (U (ix2 n 1)) (U (ix2 n 2)) 3 := by
  rw [val_main_v122_apply, show idx_main_v122 (ix2 n (0 : Fin 1)) = ix1 n from funext fun a => match a with | ⟨0, _⟩ => rfl,
    h3, x_apply, y_apply, z_apply]

theorem col4 (n : Fin 3200000) :
    val_main_v123 (F := Ideal) x0 x1 x2 x3 (ix2 n 0) = harm (U (ix2 n 0)) (U (ix2 n 1)) (U (ix2 n 2)) 4 := by
  rw [val_main_v123_apply, show idx_main_v123 (ix2 n (0 : Fin 1)) = ix1 n from funext fun a => match a with | ⟨0, _⟩ => rfl,
    h4, x_apply, y_apply, z_apply]

theorem col5 (n : Fin 3200000) :
    val_main_v124 (F := Ideal) x0 x1 x2 x3 (ix2 n 0) = harm (U (ix2 n 0)) (U (ix2 n 1)) (U (ix2 n 2)) 5 := by
  rw [val_main_v124_apply, show idx_main_v124 (ix2 n (0 : Fin 1)) = ix1 n from funext fun a => match a with | ⟨0, _⟩ => rfl,
    h5, x_apply, y_apply, z_apply]

theorem col6 (n : Fin 3200000) :
    val_main_v125 (F := Ideal) x0 x1 x2 x3 (ix2 n 0) = harm (U (ix2 n 0)) (U (ix2 n 1)) (U (ix2 n 2)) 6 := by
  rw [val_main_v125_apply, show idx_main_v125 (ix2 n (0 : Fin 1)) = ix1 n from funext fun a => match a with | ⟨0, _⟩ => rfl,
    h6, x_apply, y_apply, z_apply]

theorem col7 (n : Fin 3200000) :
    val_main_v126 (F := Ideal) x0 x1 x2 x3 (ix2 n 0) = harm (U (ix2 n 0)) (U (ix2 n 1)) (U (ix2 n 2)) 7 := by
  rw [val_main_v126_apply, show idx_main_v126 (ix2 n (0 : Fin 1)) = ix1 n from funext fun a => match a with | ⟨0, _⟩ => rfl,
    h7, x_apply, y_apply, z_apply]

theorem col8 (n : Fin 3200000) :
    val_main_v127 (F := Ideal) x0 x1 x2 x3 (ix2 n 0) = harm (U (ix2 n 0)) (U (ix2 n 1)) (U (ix2 n 2)) 8 := by
  rw [val_main_v127_apply, show idx_main_v127 (ix2 n (0 : Fin 1)) = ix1 n from funext fun a => match a with | ⟨0, _⟩ => rfl,
    h8, x_apply, y_apply, z_apply]

theorem col9 (n : Fin 3200000) :
    val_main_v128 (F := Ideal) x0 x1 x2 x3 (ix2 n 0) = harm (U (ix2 n 0)) (U (ix2 n 1)) (U (ix2 n 2)) 9 := by
  rw [val_main_v128_apply, show idx_main_v128 (ix2 n (0 : Fin 1)) = ix1 n from funext fun a => match a with | ⟨0, _⟩ => rfl,
    h9, x_apply, y_apply, z_apply]

theorem col10 (n : Fin 3200000) :
    val_main_v129 (F := Ideal) x0 x1 x2 x3 (ix2 n 0) = harm (U (ix2 n 0)) (U (ix2 n 1)) (U (ix2 n 2)) 10 := by
  rw [val_main_v129_apply, show idx_main_v129 (ix2 n (0 : Fin 1)) = ix1 n from funext fun a => match a with | ⟨0, _⟩ => rfl,
    h10, x_apply, y_apply, z_apply]

theorem col11 (n : Fin 3200000) :
    val_main_v130 (F := Ideal) x0 x1 x2 x3 (ix2 n 0) = harm (U (ix2 n 0)) (U (ix2 n 1)) (U (ix2 n 2)) 11 := by
  rw [val_main_v130_apply, show idx_main_v130 (ix2 n (0 : Fin 1)) = ix1 n from funext fun a => match a with | ⟨0, _⟩ => rfl,
    h11, x_apply, y_apply, z_apply]

theorem col12 (n : Fin 3200000) :
    val_main_v131 (F := Ideal) x0 x1 x2 x3 (ix2 n 0) = harm (U (ix2 n 0)) (U (ix2 n 1)) (U (ix2 n 2)) 12 := by
  rw [val_main_v131_apply, show idx_main_v131 (ix2 n (0 : Fin 1)) = ix1 n from funext fun a => match a with | ⟨0, _⟩ => rfl,
    h12, x_apply, y_apply, z_apply]

theorem col13 (n : Fin 3200000) :
    val_main_v132 (F := Ideal) x0 x1 x2 x3 (ix2 n 0) = harm (U (ix2 n 0)) (U (ix2 n 1)) (U (ix2 n 2)) 13 := by
  rw [val_main_v132_apply, show idx_main_v132 (ix2 n (0 : Fin 1)) = ix1 n from funext fun a => match a with | ⟨0, _⟩ => rfl,
    h13, x_apply, y_apply, z_apply]

theorem col14 (n : Fin 3200000) :
    val_main_v133 (F := Ideal) x0 x1 x2 x3 (ix2 n 0) = harm (U (ix2 n 0)) (U (ix2 n 1)) (U (ix2 n 2)) 14 := by
  rw [val_main_v133_apply, show idx_main_v133 (ix2 n (0 : Fin 1)) = ix1 n from funext fun a => match a with | ⟨0, _⟩ => rfl,
    h14, x_apply, y_apply, z_apply]

theorem col15 (n : Fin 3200000) :
    val_main_v134 (F := Ideal) x0 x1 x2 x3 (ix2 n 0) = harm (U (ix2 n 0)) (U (ix2 n 1)) (U (ix2 n 2)) 15 := by
  rw [val_main_v134_apply, show idx_main_v134 (ix2 n (0 : Fin 1)) = ix1 n from funext fun a => match a with | ⟨0, _⟩ => rfl,
    h15, x_apply, y_apply, z_apply]

/-! ## The join of the sixteen columns -/

/-- The sixteen columns the reference joins, by number. -/
def cols : Fin 16 → (⟨S3200000x1, .f32⟩ : BufTy).Contents (Elt Ideal)
  | ⟨0, _⟩ => val_main_v119 (F := Ideal)
  | ⟨1, _⟩ => val_main_v120 (F := Ideal) x0 x1 x2 x3
  | ⟨2, _⟩ => val_main_v121 (F := Ideal) x0 x1 x2 x3
  | ⟨3, _⟩ => val_main_v122 (F := Ideal) x0 x1 x2 x3
  | ⟨4, _⟩ => val_main_v123 (F := Ideal) x0 x1 x2 x3
  | ⟨5, _⟩ => val_main_v124 (F := Ideal) x0 x1 x2 x3
  | ⟨6, _⟩ => val_main_v125 (F := Ideal) x0 x1 x2 x3
  | ⟨7, _⟩ => val_main_v126 (F := Ideal) x0 x1 x2 x3
  | ⟨8, _⟩ => val_main_v127 (F := Ideal) x0 x1 x2 x3
  | ⟨9, _⟩ => val_main_v128 (F := Ideal) x0 x1 x2 x3
  | ⟨10, _⟩ => val_main_v129 (F := Ideal) x0 x1 x2 x3
  | ⟨11, _⟩ => val_main_v130 (F := Ideal) x0 x1 x2 x3
  | ⟨12, _⟩ => val_main_v131 (F := Ideal) x0 x1 x2 x3
  | ⟨13, _⟩ => val_main_v132 (F := Ideal) x0 x1 x2 x3
  | ⟨14, _⟩ => val_main_v133 (F := Ideal) x0 x1 x2 x3
  | ⟨15, _⟩ => val_main_v134 (F := Ideal) x0 x1 x2 x3
  | ⟨m + 16, hm⟩ => absurd hm (by omega)

/-- Column k at (n, 0) is harmonic k of row n of the direction array. -/
theorem cols_apply (n : Fin 3200000) (k : Fin 16) :
    cols x0 x1 x2 x3 k (ix2 n 0) = harm (U (ix2 n 0)) (U (ix2 n 1)) (U (ix2 n 2)) k := by
  match k with
  | ⟨0, _⟩ => exact col0 x0 x1 x2 x3 n
  | ⟨1, _⟩ => exact col1 x0 x1 x2 x3 n
  | ⟨2, _⟩ => exact col2 x0 x1 x2 x3 n
  | ⟨3, _⟩ => exact col3 x0 x1 x2 x3 n
  | ⟨4, _⟩ => exact col4 x0 x1 x2 x3 n
  | ⟨5, _⟩ => exact col5 x0 x1 x2 x3 n
  | ⟨6, _⟩ => exact col6 x0 x1 x2 x3 n
  | ⟨7, _⟩ => exact col7 x0 x1 x2 x3 n
  | ⟨8, _⟩ => exact col8 x0 x1 x2 x3 n
  | ⟨9, _⟩ => exact col9 x0 x1 x2 x3 n
  | ⟨10, _⟩ => exact col10 x0 x1 x2 x3 n
  | ⟨11, _⟩ => exact col11 x0 x1 x2 x3 n
  | ⟨12, _⟩ => exact col12 x0 x1 x2 x3 n
  | ⟨13, _⟩ => exact col13 x0 x1 x2 x3 n
  | ⟨14, _⟩ => exact col14 x0 x1 x2 x3 n
  | ⟨15, _⟩ => exact col15 x0 x1 x2 x3 n
  | ⟨m + 16, hm⟩ => exact absurd hm (by omega)

end

/-- The reference's result at (n, k) is harmonic k of the direction array's row n. -/
theorem harmonics_apply (x0 : FVec Ideal S100000x3 .f32) (x1 : IVec S2x3200000 32) (x2 : FVec Ideal S1x3x3 .f32) (x3 : FVec Ideal S3200000x3 .f32)
    (n : Fin 3200000) (k : Fin 16) :
    val_main_v135 (F := Ideal) x0 x1 x2 x3 (ix2 n k)
      = Cert.SH.harm (val_main_v26 (F := Ideal) x0 x1 x2 x3 (ix2 n 0)) (val_main_v26 (F := Ideal) x0 x1 x2 x3 (ix2 n 1))
          (val_main_v26 (F := Ideal) x0 x1 x2 x3 (ix2 n 2)) k := by
  unfold val_main_v135
  -- the join is of sixteen single columns: entry (n, k) is column k's entry (n, 0)
  refine (concatenate_ofFn_unit_apply (t := S3200000x16) (s₁ := S3200000x1) 1 (cols x0 x1 x2 x3) _ rfl rfl (ix2 n k) k rfl
    (ix2 n 0) (fun b hb => ?_)).trans (cols_apply x0 x1 x2 x3 n k)
  match b with
  | ⟨0, _⟩ => rfl
  | ⟨1, _⟩ => exact absurd rfl hb

end Cert.ReferenceIdeal.RefValue

end
-- ==== Proof.RefResult.lean ====
/-
  The reference's result, whole: row n of its result holds the sixteen harmonics of the direction of edge n, the direction
  being the displacement over its clamped norm, for endpoint words in range.
-/
import proofs.«420859_j42193758716383_3_alg».proof.Proof.RefEdge
import proofs.«420859_j42193758716383_3_alg».proof.Proof.RefChain

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- THE REFERENCE'S RESULT is the one function of the arguments. -/
theorem result_eq (x0 : FVec Ideal S100000x3 .f32) (x1 : IVec S2x3200000 32) (x2 : FVec Ideal S1x3x3 .f32) (x3 : FVec Ideal S3200000x3 .f32)
    (hin : Cert.SH.InRange x1) :
    val_main_v135 (F := Ideal) x0 x1 x2 x3 = Cert.SH.edgeHarmonics x0 x1 x2 x3 := by
  funext i
  obtain ⟨n, k, rfl⟩ : ∃ (n : Fin 3200000) (k : Fin 16), i = ix2 n k := ⟨i 0, i 1, eq_ix2 i⟩
  rw [harmonics_apply, dir_apply x0 x1 x2 x3 hin n 0, dir_apply x0 x1 x2 x3 hin n 1, dir_apply x0 x1 x2 x3 hin n 2]
  rfl

end Cert.ReferenceIdeal.RefValue

end
-- ==== Proof.PreRange.lean ====
/-
  The precondition decoded: its last two conjuncts are "every endpoint word is at least 0" and "every endpoint word is
  below 100000", each an all-reduction of a comparison over the whole index array; all ones means every element's
  comparison holds.
-/
import proofs.«420859_j42193758716383_3_alg».proof.Pre_finite_inputs
import proofs.«420859_j42193758716383_3_alg».proof.Proof.Gen.Pre_finite_inputs
import proofs.«420859_j42193758716383_3_alg».proof.Proof.Harmonics
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx

/-- The scalar shape has exactly one index (the empty tuple). -/
instance scalarIdx_subsingleton : Subsingleton S_.Idx := ⟨fun a b => funext fun d => d.elim0⟩

/-- A conjunction of two one-bit words is 1 exactly when both are. -/
theorem and_one : ∀ a b : BitVec 1, IntOp.andi a b = 1#1 ↔ a = 1#1 ∧ b = 1#1 := by decide

/-- The conjunction of two scalar one-bit arrays, read at the one index, is the conjunction of the two words. -/
theorem andi_at (x y : IVec S_ 1) (i : S_.Idx) : andi x y i = IntOp.andi (x i) (y i) := rfl

/-- An elementwise signed comparison against a broadcast scalar word, read at a position, compares that position's word
    with the scalar. -/
theorem cmp_bcast_at [Facts] (p : CmpIPredicate) (x : IVec S2x3200000 32) (w : BitVec 32) (i : S2x3200000.Idx) :
    cmpi p x (broadcastInDim S2x3200000 ![] Facts.bcast_S_S2x3200000 (constantI S_ 32 w)) i = IntOp.cmpi p (x i) w := rfl

/-- An all-reduction by "and" of such a comparison that came out 1: the comparison holds at every position. -/
theorem all_cmp [Facts] (p : CmpIPredicate) (x : IVec S2x3200000 32) (w : BitVec 32) (init : IVec S_ 1) (j : S_.Idx)
    (e : Host.reduce IntOp.andi
          (cmpi p x (broadcastInDim S2x3200000 ![] Facts.bcast_S_S2x3200000 (constantI S_ 32 w))) init
          Facts.reducesTo_S2x3200000_S_d0_1 Facts.h_S_ j = 1#1)
    (i : S2x3200000.Idx) : IntOp.cmpi p (x i) w = 1#1 :=
  (cmp_bcast_at p x w i).symm.trans (Host.reduce_andi_all _ init Facts.reducesTo_S2x3200000_S_d0_1 Facts.h_S_ j e i)

/-- Where the precondition is all ones, every endpoint word is in range. -/
theorem inRange_of_pre {F : FTy → Type} [FloatOps F] [Cert.Pre_finite_inputs.Facts]
    (a0 : FVec F S100000x3 .f32) (a1 : IVec S2x3200000 32) (a2 : FVec F S1x3x3 .f32) (a3 : FVec F S3200000x3 .f32)
    (h : Cert.Pre_finite_inputs.fn (F := F) a0 a1 a2 a3 = fun _ => 1#1) : Cert.SH.InRange a1 := by
  -- the precondition's one word, with the chain of operations in view
  have e := congrFun h ValueIdx.ix0
  unfold Cert.Pre_finite_inputs.fn Cert.Pre_finite_inputs.fn_part1 at e
  dsimp only at e
  -- it is (finiteness ∧ all(ends ≥ 0)) ∧ all(ends < 100000): keep the last two
  rw [andi_at, and_one, andi_at, and_one] at e
  obtain ⟨⟨-, hge⟩, hlt⟩ := e
  intro r n
  exact ⟨all_cmp .sge a1 0#32 _ _ hge (ix2 r n), all_cmp .slt a1 100000#32 _ _ hlt (ix2 r n)⟩

end Cert.Pre_finite_inputs.Range

end
-- ==== Proof.lean ====
/-
  Two programs compute, for each of 3.2 million edges of a periodic graph, the sixteen real spherical harmonics (degree at
  most three, each degree scaled by the root of its dimension) of the edge's direction u = v / max(‖v‖, D), where
  v = pos[dst] - pos[src] + shift · cell is the displacement and D the reference's small positive clamp.

  They differ in three ways, none of which changes the value. (1) One gathers the endpoints from the transposed position
  table with a gather that fills where an index is out of range, the other gathers rows; for endpoint words in range
  (the precondition) both read the endpoint's position. (2) One contracts the shift with the cell as three written-out
  products, the other as a matrix product: the same three-term sum. (3) One scales v by 1/√(max(‖v‖², D²)), the clamp
  on the square being named exactly D², the other divides by max(‖v‖, D): the root is monotone and √(D²) = D, so the two
  lengths are one number (Proof/ClampLaw.lean), on all of the extended reals. The harmonics themselves are the same
  operations in the same order on both sides (Proof/Harmonics.lean states them once).

  The kernel's value: entry (e, k) of the block a grid point stores is harmonic k of lane e's scaled displacement
  (Proof/KernelPayload.lean); the staged array holds the displacements (Proof/KernelEdge.lean); the 250 blocks tile the
  result (Proof/KernelArray.lean). The reference's value: Proof/RefEdge.lean, Proof/RefChain.lean, Proof/RefResult.lean.
  The precondition's index range: Proof/PreRange.lean.
-/
import proofs.«420859_j42193758716383_3_alg».proof.Defs
import proofs.«420859_j42193758716383_3_alg».proof.Proof.Gen.Kernel
import proofs.«420859_j42193758716383_3_alg».proof.Proof.Gen.Kernel.Skeleton
import proofs.«420859_j42193758716383_3_alg».proof.Proof.Gen.Kernel.Launch
import proofs.«420859_j42193758716383_3_alg».proof.Proof.Gen.Kernel.Points
import proofs.«420859_j42193758716383_3_alg».proof.Proof.Gen.Kernel.Frame
import proofs.«420859_j42193758716383_3_alg».proof.Proof.Gen.KernelIdeal
import proofs.«420859_j42193758716383_3_alg».proof.Proof.Gen.KernelIdeal.Skeleton
import proofs.«420859_j42193758716383_3_alg».proof.Proof.Gen.KernelIdeal.Launch
import proofs.«420859_j42193758716383_3_alg».proof.Proof.Gen.KernelIdeal.Points
import proofs.«420859_j42193758716383_3_alg».proof.Proof.Gen.KernelIdeal.Frame
import proofs.«420859_j42193758716383_3_alg».proof.Proof.Gen.ReferenceIdeal
import proofs.«420859_j42193758716383_3_alg».proof.Proof.Gen.Pre_finite_inputs
import proofs.«420859_j42193758716383_3_alg».proof.Proof.Gen.KernelIdeal.Value
import proofs.«420859_j42193758716383_3_alg».proof.Proof.Gen.ReferenceIdeal.Run
import proofs.«420859_j42193758716383_3_alg».proof.Proof.Gen.ReferenceIdeal.Read
import Idealize.ShloMosaic.Adequacy
import Idealize.ShloMosaic.Init

import proofs.«420859_j42193758716383_3_alg».proof.Proof.KernelArray
import proofs.«420859_j42193758716383_3_alg».proof.Proof.RefResult
import proofs.«420859_j42193758716383_3_alg».proof.Proof.PreRange

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one idealization: the clamp on the squared length is named D², the exact square of the reference's clamp, and the
    name denotes that rational. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Both programs end holding the same function of the arguments: the harmonics of every edge's direction. -/
theorem algebraic : Cert.algebraic_KernelIdeal_ReferenceIdeal := by
  intro m ρ m' ρ' hpre hagree
  have hin : ∀ c : Dev Cert.KernelIdeal.nD, Cert.SH.InRange
      (m ((c.tc : Thread Cert.KernelIdeal.nD Cert.KernelIdeal.τ).loc Cert.KernelIdeal.main_arg1)) :=
    fun c => Cert.Pre_finite_inputs.Range.inRange_of_pre _ _ _ _ (hpre c)
  refine ⟨fun c => Cert.KernelIdeal.Array.G m c, Cert.KernelIdeal.Array.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq, (hagree c).1, (hagree c).2.1, (hagree c).2.2.1, (hagree c).2.2.2]
  exact Cert.ReferenceIdeal.RefValue.result_eq _ _ _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
